-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x64 : Shape := ⟨2, ![4096, 64]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_arg5 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_c_8 : IVec S_ 32 := constantI S_ 32 0#32
  let main_v24 : IVec S4096x4096 32 := broadcastInDim S4096x4096 ![] bcast_S_S4096x4096 main_c_8
  let main_v25 : IVec S4096x4096 1 := cmpi .sge main_arg1 main_v24
  let main_c_9 : IVec S_ 32 := constantI S_ 32 16#32
  let main_v26 : IVec S4096x4096 32 := broadcastInDim S4096x4096 ![] bcast_S_S4096x4096 main_c_9
  let main_v27 : IVec S4096x4096 1 := cmpi .slt main_arg1 main_v26
  let main_v28 : IVec S4096x4096 1 := andi main_v25 main_v27
  let main_c_10 : IVec S_ 1 := constantI S_ 1 1#1
  let main_v29 : IVec S_ 1 := (fun x v => Host.reduce IntOp.andi x v reducesTo_S4096x4096_S_d0_1 h_S_) main_v28 main_c_10
  let main_v30 : IVec S_ 1 := andi main_v23 main_v29
  main_v30

def fn {F : FTy → Type} [FloatOps F] (main_arg0 : FVec F S8192x4096 .f32) (main_arg1 : IVec S4096x4096 32) (main_arg2 : FVec F S4096x64 .f32) (main_arg3 : FVec F S4096 .f32) (main_arg4 : FVec F S4096x16 .f32) (main_arg5 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_arg5 main_v13 main_v16
-- ==== Kernel.lean ====
abbrev S8192x4096 : Shape := ⟨2, ![8192, 4096]⟩
abbrev S4096x4096 : Shape := ⟨2, ![4096, 4096]⟩
abbrev S4096x64 : Shape := ⟨2, ![4096, 64]⟩
abbrev S4096 : Shape := ⟨1, ![4096]⟩
abbrev S4096x16 : Shape := ⟨2, ![4096, 16]⟩
abbrev S16x4096 : Shape := ⟨2, ![16, 4096]⟩
abbrev S1x4096 : Shape := ⟨2, ![1, 4096]⟩
abbrev S8192x16 : Shape := ⟨2, ![8192, 16]⟩
abbrev S8x512 : Shape := ⟨2, ![8, 512]⟩
abbrev S_ : Shape := ⟨0, ![]⟩
abbrev S512x4096 : Shape := ⟨2, ![512, 4096]⟩
abbrev S512x64 : Shape := ⟨2, ![512, 64]⟩
abbrev S16x512 : Shape := ⟨2, ![16, 512]⟩
abbrev S1x512 : Shape := ⟨2, ![1, 512]⟩
abbrev S512x16 : Shape := ⟨2, ![512, 16]⟩
abbrev S512x512 : Shape := ⟨2, ![512, 512]⟩
abbrev S512x8 : Shape := ⟨2, ![512, 8]⟩

abbrev nBuf : Space → Nat
  | .hbm => 35
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x16, .f32⟩
  | .hbm, ⟨5, _⟩ => ⟨S16x4096, .f32⟩
  | .hbm, ⟨6, _⟩ => ⟨S8192x4096, .bf16⟩
  | .hbm, ⟨7, _⟩ => ⟨S4096x16, .bf16⟩
  | .hbm, ⟨8, _⟩ => ⟨S16x4096, .bf16⟩
  | .hbm, ⟨9, _⟩ => ⟨S1x4096, .f32⟩
  | .hbm, ⟨10, _⟩ => ⟨S8192x16, .f32⟩
  | .hbm, ⟨11, _⟩ => ⟨S8192x16, .bf16⟩
  | .hbm, ⟨12, _⟩ => ⟨S8x512, .i32⟩
  | .hbm, ⟨13, _⟩ => ⟨S_, .i32⟩
  | .hbm, ⟨14, _⟩ => ⟨S_, .i32⟩
  | .hbm, ⟨15, _⟩ => ⟨S8x512, .i32⟩
  | .hbm, ⟨16, _⟩ => ⟨S8x512, .i32⟩
  | .hbm, ⟨17, _⟩ => ⟨S8x512, .i32⟩
  | .hbm, ⟨18, _⟩ => ⟨S_, .i32⟩
  | .hbm, ⟨19, _⟩ => ⟨S8x512, .i32⟩
  | .hbm, ⟨20, _⟩ => ⟨S8x512, .i1⟩
  | .hbm, ⟨21, _⟩ => ⟨S8x512, .i32⟩
  | .hbm, ⟨22, _⟩ => ⟨S8x512, .i32⟩
  | .hbm, ⟨23, _⟩ => ⟨S_, .i32⟩
  | .hbm, ⟨24, _⟩ => ⟨S8x512, .i32⟩
  | .hbm, ⟨25, _⟩ => ⟨S8x512, .i1⟩
  | .hbm, ⟨26, _⟩ => ⟨S8x512, .i1⟩
  | .hbm, ⟨27, _⟩ => ⟨S_, .i32⟩
  | .hbm, ⟨28, _⟩ => ⟨S8x512, .i32⟩
  | .hbm, ⟨29, _⟩ => ⟨S8x512, .i32⟩
  | .hbm, ⟨30, _⟩ => ⟨S8x512, .i32⟩
  | .hbm, ⟨31, _⟩ => ⟨S8x512, .i32⟩
  | .hbm, ⟨32, _⟩ => ⟨S8x512, .i1⟩
  | .hbm, ⟨33, _⟩ => ⟨S8x512, .f32⟩
  | .hbm, ⟨34, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .i32⟩
  | .local _ .vmem, ⟨3, _⟩ => ⟨S512x64, .f32⟩
  | .local _ .vmem, ⟨4, _⟩ => ⟨S8x512, .f32⟩
  | .local _ .vmem, ⟨5, _⟩ => ⟨S16x512, .bf16⟩
  | .local _ .vmem, ⟨6, _⟩ => ⟨S1x512, .f32⟩
  | .local _ .vmem, ⟨7, _⟩ => ⟨S512x16, .bf16⟩
  | .local _ .vmem, ⟨8, _⟩ => ⟨S512x16, .bf16⟩
  | .local _ .vmem, ⟨9, _⟩ => ⟨S512x512, .f32⟩
  | .local _ .vmem, ⟨10, _⟩ => ⟨S512x512, .f32⟩
  | .local _ .vmem, ⟨11, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x16 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S4096_S1x4096 : S4096.ShapeCasts S1x4096
  bcast_S_S8x512 : S_.BroadcastsInDim S8x512 (![] : Fin 0 → Fin S8x512.rank)
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512x4096_S512x512_0_0 : ∀ a, (![0, 0] : Fin 2 → Nat) a + S512x512.size a ≤ S512x4096.size a
  h_S512x512 : 0 < S512x512.numel
  inb_S512x64_S512x8_0_0 : ∀ a, (![0, 0] : Fin 2 → Nat) a + S512x8.size a ≤ S512x64.size a
  h_S512x8 : 0 < S512x8.numel
  shapeCasts_S512x512_S512x512 : S512x512.ShapeCasts S512x512
  packedbf16_S512x4096_S512x512_0_0 : (Rect.unit (s := S512x4096) ![0, 0] S512x512.size inb_S512x4096_S512x512_0_0).PackedRows (EltTy.packing .bf16)
  inb_S512x4096_S512x512_0_512 : ∀ a, (![0, 512] : Fin 2 → Nat) a + S512x512.size a ≤ S512x4096.size a
  inb_S512x64_S512x8_0_8 : ∀ a, (![0, 8] : Fin 2 → Nat) a + S512x8.size a ≤ S512x64.size a
  packedbf16_S512x4096_S512x512_0_512 : (Rect.unit (s := S512x4096) ![0, 512] S512x512.size inb_S512x4096_S512x512_0_512).PackedRows (EltTy.packing .bf16)
  inb_S512x4096_S512x512_0_1024 : ∀ a, (![0, 1024] : Fin 2 → Nat) a + S512x512.size a ≤ S512x4096.size a
  inb_S512x64_S512x8_0_16 : ∀ a, (![0, 16] : Fin 2 → Nat) a + S512x8.size a ≤ S512x64.size a
  packedbf16_S512x4096_S512x512_0_1024 : (Rect.unit (s := S512x4096) ![0, 1024] S512x512.size inb_S512x4096_S512x512_0_1024).PackedRows (EltTy.packing .bf16)
  inb_S512x4096_S512x512_0_1536 : ∀ a, (![0, 1536] : Fin 2 → Nat) a + S512x512.size a ≤ S512x4096.size a
  inb_S512x64_S512x8_0_24 : ∀ a, (![0, 24] : Fin 2 → Nat) a + S512x8.size a ≤ S512x64.size a
  packedbf16_S512x4096_S512x512_0_1536 : (Rect.unit (s := S512x4096) ![0, 1536] S512x512.size inb_S512x4096_S512x512_0_1536).PackedRows (EltTy.packing .bf16)
  inb_S512x4096_S512x512_0_2048 : ∀ a, (![0, 2048] : Fin 2 → Nat) a + S512x512.size a ≤ S512x4096.size a
  inb_S512x64_S512x8_0_32 : ∀ a, (![0, 32] : Fin 2 → Nat) a + S512x8.size a ≤ S512x64.size a
  packedbf16_S512x4096_S512x512_0_2048 : (Rect.unit (s := S512x4096) ![0, 2048] S512x512.size inb_S512x4096_S512x512_0_2048).PackedRows (EltTy.packing .bf16)
  inb_S512x4096_S512x512_0_2560 : ∀ a, (![0, 2560] : Fin 2 → Nat) a + S512x512.size a ≤ S512x4096.size a
  inb_S512x64_S512x8_0_40 : ∀ a, (![0, 40] : Fin 2 → Nat) a + S512x8.size a ≤ S512x64.size a
  packedbf16_S512x4096_S512x512_0_2560 : (Rect.unit (s := S512x4096) ![0, 2560] S512x512.size inb_S512x4096_S512x512_0_2560).PackedRows (EltTy.packing .bf16)
  inb_S512x4096_S512x512_0_3072 : ∀ a, (![0, 3072] : Fin 2 → Nat) a + S512x512.size a ≤ S512x4096.size a
  inb_S512x64_S512x8_0_48 : ∀ a, (![0, 48] : Fin 2 → Nat) a + S512x8.size a ≤ S512x64.size a
  packedbf16_S512x4096_S512x512_0_3072 : (Rect.unit (s := S512x4096) ![0, 3072] S512x512.size inb_S512x4096_S512x512_0_3072).PackedRows (EltTy.packing .bf16)
  inb_S512x4096_S512x512_0_3584 : ∀ a, (![0, 3584] : Fin 2 → Nat) a + S512x512.size a ≤ S512x4096.size a
  inb_S512x64_S512x8_0_56 : ∀ a, (![0, 56] : Fin 2 → Nat) a + S512x8.size a ≤ S512x64.size a
  packedbf16_S512x4096_S512x512_0_3584 : (Rect.unit (s := S512x4096) ![0, 3584] S512x512.size inb_S512x4096_S512x512_0_3584).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  dot_S8192x4096_S4096x16_S8192x16_1_0_0_1_n_n_wf : DotDims.WF S8192x4096 S4096x16 S8192x16 [1] [0] [0] [1] [] []
  dot_S512x8_S8x512_S512x512_1_0_0_1_n_n_wf : DotDims.WF S512x8 S8x512 S512x512 [1] [0] [0] [1] [] []
  dot_S512x4096_S512x4096_S512x512_1_1_0_0_n_n_wf : DotDims.WF S512x4096 S512x4096 S512x512 [1] [1] [0] [0] [] []
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .f32 = 32 ∨ (Rect.block (s := S4096x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x4096.size a
  hwx0_4 : ∀ i : grid0.Coords, EltTy.bits .bf16 = 32 ∨ (Rect.block (s := S16x4096) S16x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x16.size a ≤ S8192x16.size a
  hwx0_6 : ∀ i : grid0.Coords, EltTy.bits .bf16 = 32 ∨ (Rect.block (s := S8192x16) S512x16.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x4096.size a
  hwx0_7 : ∀ i : grid0.Coords, EltTy.bits .f32 = 32 ∨ (Rect.block (s := S8192x4096) S512x512.size (cc0_transform_7 i) (hinb0_7 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x64 : Shape := ⟨2, ![4096, 64]⟩
abbrev S4096 : Shape := ⟨1, ![4096]⟩
abbrev S4096x16 : Shape := ⟨2, ![4096, 16]⟩
abbrev S16x4096 : Shape := ⟨2, ![16, 4096]⟩
abbrev S16 : Shape := ⟨1, ![16]⟩
abbrev S_ : Shape := ⟨0, ![]⟩
abbrev S4096x4096x1 : Shape := ⟨3, ![4096, 4096, 1]⟩
abbrev S4096x64x64 : Shape := ⟨3, ![4096, 64, 64]⟩
abbrev S1x4096 : Shape := ⟨2, ![1, 4096]⟩
abbrev S8192x16 : Shape := ⟨2, ![8192, 16]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x16, .f32⟩
  | .hbm, ⟨5, _⟩ => ⟨S16x4096, .f32⟩
  | .hbm, ⟨6, _⟩ => ⟨S16, .f32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .f32⟩
  | .hbm, ⟨16, _⟩ => ⟨S4096x64x64, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x16, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  gather_S16_S4096x4096x1_S4096x4096_n_0_n_n_0_2_1_wf : GatherDims.WF S16 S4096x4096x1 S4096x4096 [] [0] [] [0] [] 2 ![1]
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.KernelArrays.lean ====
/-
  Names, at their literal array types, for the six launch arguments and for the seven arrays the kernel region stages
  (the token matrix, the codes, the block scales, the expansion matrix, the second adapter factor, the bias row and the
  low-rank projection), all over the extended reals.
-/
import proofs.«403630_j4672924418482_2_alg».proof.Proof.Gen.KernelIdeal.Frame
import Idealize.ShloMosaic.PureOps.Ideal

noncomputable section

namespace Cert.KernelIdeal.Arr

open Cert.KernelIdeal Cert.KernelIdeal.Gen Idealize.ShloMosaic Idealize.ShloMosaic.TcCoe Idealize.SL.Sem

variable (m : (ℓ : Loc nD τ sig) → Buf (Elt Ideal) ℓ)

/-- The tokens. -/
abbrev x (c : Dev nD) : FVec Ideal S8192x4096 .f32 := m ((c : Thread nD τ).loc main_arg0)
/-- The weight codes. -/
abbrev w (c : Dev nD) : IVec S4096x4096 32 := m ((c : Thread nD τ).loc main_arg1)
/-- The block scales. -/
abbrev a (c : Dev nD) : FVec Ideal S4096x64 .f32 := m ((c : Thread nD τ).loc main_arg2)
/-- The bias. -/
abbrev b (c : Dev nD) : FVec Ideal S4096 .f32 := m ((c : Thread nD τ).loc main_arg3)
/-- The first adapter factor. -/
abbrev lA (c : Dev nD) : FVec Ideal S4096x16 .f32 := m ((c : Thread nD τ).loc main_arg4)
/-- The second adapter factor. -/
abbrev lB (c : Dev nD) : FVec Ideal S16x4096 .f32 := m ((c : Thread nD τ).loc main_arg5)

/-- Window 0's array at region entry: the tokens in the narrow format. -/
abbrev e0 (c : Dev nD) : FVec Ideal S8192x4096 .bf16 := V m c main_v0
/-- Window 1's: the codes. -/
abbrev e1 (c : Dev nD) : IVec S4096x4096 32 := V m c main_arg1
/-- Window 2's: the block scales. -/
abbrev e2 (c : Dev nD) : FVec Ideal S4096x64 .f32 := V m c main_arg2
/-- Window 3's: the expansion matrix. -/
abbrev e3 (c : Dev nD) : FVec Ideal S8x512 .f32 := V m c main_v10
/-- Window 4's: the second adapter factor in the narrow format. -/
abbrev e4 (c : Dev nD) : FVec Ideal S16x4096 .bf16 := V m c main_v2
/-- Window 5's: the bias as one row. -/
abbrev e5 (c : Dev nD) : FVec Ideal S1x4096 .f32 := V m c main_v3
/-- Window 6's: the low-rank projection. -/
abbrev e6 (c : Dev nD) : FVec Ideal S8192x16 .bf16 := V m c main_v5

end Cert.KernelIdeal.Arr

end
-- ==== Proof.KernelHost.lean ====
/-
  The arrays the kernel region finds, as functions of the launch arguments, over the extended reals (where a change of
  float format is the identity): the token matrix and the second adapter factor are the arguments themselves, the bias row
  is the bias vector laid out as one row, the low-rank projection is the product of the tokens with the first adapter
  factor, and the expansion matrix has a one at `(r, c)` exactly when column `c` lies in the `r`-th block of 64 columns.
-/
import proofs.«403630_j4672924418482_2_alg».proof.Proof.KernelArrays
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

open scoped BigOperators

namespace Cert.KernelIdeal.Host

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The formats: a change of float format is the identity on extended reals -/

/-- The token matrix the region stages is the argument. -/
theorem e0_eq (c : Dev nD) : Arr.e0 m c = Arr.x m c := by
  show (V m c main_v0 : S8192x4096.Idx → EReal) = _
  dsimp only [Gen.V]
  simp only [Gen.hostOps0, Gen.hostOps0_1, Gen.hostOps0_2, List.flatten_cons, List.flatten_nil, List.append_nil, List.cons_append,
    List.nil_append]
  after_results
  rfl

/-- The codes the region stages are the argument. -/
theorem e1_eq (c : Dev nD) : Arr.e1 m c = Arr.w m c := V_main_arg1 m c

/-- The block scales the region stages are the argument. -/
theorem e2_eq (c : Dev nD) : Arr.e2 m c = Arr.a m c := V_main_arg2 m c

/-- The second adapter factor the region stages is the argument. -/
theorem e4_eq (c : Dev nD) : Arr.e4 m c = Arr.lB m c := by
  show (V m c main_v2 : S16x4096.Idx → EReal) = _
  dsimp only [Gen.V]
  simp only [Gen.hostOps0, Gen.hostOps0_1, Gen.hostOps0_2, List.flatten_cons, List.flatten_nil, List.append_nil, List.cons_append,
    List.nil_append]
  after_results
  rfl

/-! ## The bias row: the bias vector laid out as one row -/

/-- The staged bias array is the reshape of the bias vector to one row. -/
theorem e5_term (c : Dev nD) : (V m c main_v3 : S1x4096.Idx → EReal)
    = shapeCast S1x4096 (m (c, Proc.devRef .tc main_arg3) : S4096.Idx → EReal) shapeCasts_S4096_S1x4096 := by
  dsimp only [Gen.V]
  simp only [Gen.hostOps0, Gen.hostOps0_1, Gen.hostOps0_2, List.flatten_cons, List.flatten_nil, List.append_nil, List.cons_append,
    List.nil_append]
  after_results
  rfl

/-- The bias row. -/
theorem e5_apply (c : Dev nD) (q : Fin 4096) : Arr.e5 m c (ix2 (0 : Fin 1) q) = Arr.b m c (ix1 q) := by
  show (V m c main_v3 : S1x4096.Idx → EReal) (ix2 (0 : Fin 1) q) = _
  rw [e5_term]
  exact shapeCast_apply _ shapeCasts_S4096_S1x4096 (ix2 (0 : Fin 1) q) (ix1 q) (by
    rw [Shape.rowMajor_val_two, Shape.rowMajor_val_one]; show q.val = 0 * 4096 + q.val; omega)

/-! ## The low-rank projection: a product contracted over one axis is a sum over that axis's coordinate -/

/-- The left operand is read at the result's row … -/
theorem lhs_axis0 (j : S8192x16.Idx) (k : dot_S8192x4096_S4096x16_S8192x16_1_0_0_1_n_n.contr.Idx) :
    (dot_S8192x4096_S4096x16_S8192x16_1_0_0_1_n_n.lhsIdx j k 0).val = (j 0).val := by
  unfold DotDims.lhsIdx
  rw [dif_neg (show ¬(0 : Fin S8192x4096.rank) ∈ dot_S8192x4096_S4096x16_S8192x16_1_0_0_1_n_n.lhsBatch by decide),
    dif_pos (show (0 : Fin S8192x4096.rank) ∈ dot_S8192x4096_S4096x16_S8192x16_1_0_0_1_n_n.lhsNonContracting by decide)]
  rfl

/-- … and at the contraction position in its column. -/
theorem lhs_axis1 (j : S8192x16.Idx) (k : dot_S8192x4096_S4096x16_S8192x16_1_0_0_1_n_n.contr.Idx) :
    (dot_S8192x4096_S4096x16_S8192x16_1_0_0_1_n_n.lhsIdx j k 1).val = (k ⟨0, by decide⟩).val :=
  dot_S8192x4096_S4096x16_S8192x16_1_0_0_1_n_n.lhsIdx_val_of_single rfl j k

/-- The right operand is read at the contraction position in its row … -/
theorem rhs_axis0 (j : S8192x16.Idx) (k : dot_S8192x4096_S4096x16_S8192x16_1_0_0_1_n_n.contr.Idx) :
    (dot_S8192x4096_S4096x16_S8192x16_1_0_0_1_n_n.rhsIdx j k 0).val = (k ⟨0, by decide⟩).val :=
  dot_S8192x4096_S4096x16_S8192x16_1_0_0_1_n_n.rhsIdx_val_of_single rfl j k

/-- … and at the result's column. -/
theorem rhs_axis1 (j : S8192x16.Idx) (k : dot_S8192x4096_S4096x16_S8192x16_1_0_0_1_n_n.contr.Idx) :
    (dot_S8192x4096_S4096x16_S8192x16_1_0_0_1_n_n.rhsIdx j k 1).val = (j 1).val := by
  unfold DotDims.rhsIdx
  rw [dif_neg (show ¬(1 : Fin S4096x16.rank) ∈ dot_S8192x4096_S4096x16_S8192x16_1_0_0_1_n_n.rhsBatch by decide),
    dif_pos (show (1 : Fin S4096x16.rank) ∈ dot_S8192x4096_S4096x16_S8192x16_1_0_0_1_n_n.rhsNonContracting by decide)]
  rfl

/-- The product of a token matrix with an adapter factor, read at `(t, r)`. -/
theorem dot_apply (X : FVec Ideal S8192x4096 .bf16) (A : FVec Ideal S4096x16 .bf16) (t : Fin 8192) (r : Fin 16) :
    Host.dotGeneral (F := Ideal) dot_S8192x4096_S4096x16_S8192x16_1_0_0_1_n_n none X A (ix2 t r)
      = ∑ k : Fin 4096, X (ix2 t k) * A (ix2 k r) := by
  simp only [Host.dotGeneral]
  rw [Ideal.dotGeneral_apply, ← Equiv.sum_comp (contrEquiv1 dot_S8192x4096_S4096x16_S8192x16_1_0_0_1_n_n 4096 rfl rfl).symm]
  refine Finset.sum_congr rfl fun k _ => ?_
  have hk := contrEquiv1_symm_val dot_S8192x4096_S4096x16_S8192x16_1_0_0_1_n_n 4096 rfl rfl k
  have hl : dot_S8192x4096_S4096x16_S8192x16_1_0_0_1_n_n.lhsIdx (ix2 t r)
      ((contrEquiv1 dot_S8192x4096_S4096x16_S8192x16_1_0_0_1_n_n 4096 rfl rfl).symm k) = ix2 t k := by
    funext a
    match a with
    | ⟨0, _⟩ => exact Fin.ext (lhs_axis0 _ _)
    | ⟨1, _⟩ => exact Fin.ext ((lhs_axis1 _ _).trans hk)
  have hr : dot_S8192x4096_S4096x16_S8192x16_1_0_0_1_n_n.rhsIdx (ix2 t r)
      ((contrEquiv1 dot_S8192x4096_S4096x16_S8192x16_1_0_0_1_n_n 4096 rfl rfl).symm k) = ix2 k r := by
    funext a
    match a with
    | ⟨0, _⟩ => exact Fin.ext ((rhs_axis0 _ _).trans hk)
    | ⟨1, _⟩ => exact Fin.ext (rhs_axis1 _ _)
  rw [hl, hr]

/-- The staged projection is the product of the staged tokens with the first adapter factor, each in the narrow format. -/
theorem e6_term (c : Dev nD) : (V m c main_v5 : S8192x16.Idx → EReal)
    = truncf .bf16 (Host.dotGeneral (F := Ideal) dot_S8192x4096_S4096x16_S8192x16_1_0_0_1_n_n none
        (truncf .bf16 (m (c, Proc.devRef .tc main_arg0)) bitsLt_bf16_f32)
        (truncf .bf16 (m (c, Proc.devRef .tc main_arg4)) bitsLt_bf16_f32)) bitsLt_bf16_f32 := by
  dsimp only [Gen.V]
  simp only [Gen.hostOps0, Gen.hostOps0_1, Gen.hostOps0_2, List.flatten_cons, List.flatten_nil, List.append_nil, List.cons_append,
    List.nil_append]
  after_results

/-- The low-rank projection: tokens times the first adapter factor. -/
theorem e6_apply (c : Dev nD) (t : Fin 8192) (r : Fin 16) :
    Arr.e6 m c (ix2 t r) = ∑ k : Fin 4096, Arr.x m c (ix2 t k) * Arr.lA m c (ix2 k r) := by
  show (V m c main_v5 : S8192x16.Idx → EReal) (ix2 t r) = _
  rw [e6_term]
  exact dot_apply (Arr.x m c) (Arr.lA m c) t r

/-! ## The expansion matrix: column `c'` lies in block `c' / 64` -/

/-- The word the floor-division chain computes from a dividend word, the divisor being 64: the quotient rounded toward
    zero, less one when the signs of dividend and divisor differ and the remainder is not zero. -/
def floorDiv64 (x : BitVec 32) : BitVec 32 :=
  let sg : BitVec 32 → BitVec 32 := fun y => if y = 0 then 0 else if y.msb then -1 else 1
  Scalar.select
    (IntOp.andi (IntOp.cmpi .ne (sg x) (sg 64#32)) (IntOp.cmpi .ne (IntOp.remsi .host x 64#32) 0#32))
    (IntOp.subi (IntOp.divsi .host x 64#32) 1#32)
    (IntOp.divsi .host x 64#32)

/-- On the 512 column numbers the dividend is not negative and the divisor is positive, so the correction never fires and
    the chain gives the number's quotient by 64: checked on each of the 512 words. -/
theorem floorDiv64_col : ∀ n : Fin 512, floorDiv64 (BitVec.ofNat 32 n.val) = BitVec.ofNat 32 (n.val / 64) := by
  decide +kernel

/-- The staged expansion matrix, entry by entry: the bit "the column's block number equals the row number", read as 0 or 1. -/
theorem e3_term (c : Dev nD) : (V m c main_v10 : S8x512.Idx → EReal)
    = fun i => (((IntOp.cmpi .eq (floorDiv64 (BitVec.ofNat 32 (i 1).val)) (BitVec.ofNat 32 (i 0).val)).toNat : ℝ) : EReal) := by
  dsimp only [Gen.V]
  simp only [Gen.hostOps0, Gen.hostOps0_1, Gen.hostOps0_2, List.flatten_cons, List.flatten_nil, List.append_nil, List.cons_append,
    List.nil_append]
  after_results_simp
  simp only [StableHlo.TRef.ofBuf, StableHlo.TRef.toBuf, cast_eq]
  rfl

/-- The expansion matrix is one-hot in each column: column `c'` belongs to block `c' / 64`. -/
theorem e3_apply (c : Dev nD) (r : Fin 8) (c' : Fin 512) :
    Arr.e3 m c (ix2 r c') = if c'.val / 64 = r.val then (1 : EReal) else 0 := by
  show (V m c main_v10 : S8x512.Idx → EReal) (ix2 r c') = _
  rw [e3_term]
  show (((IntOp.cmpi .eq (floorDiv64 (BitVec.ofNat 32 c'.val)) (BitVec.ofNat 32 r.val)).toNat : ℝ) : EReal) = _
  rw [floorDiv64_col c']
  by_cases h : c'.val / 64 = r.val
  · rw [if_pos h, StableHlo.Predicate.cmpi_eq_iff.mpr (by rw [h])]
    simp
  · rw [if_neg h]
    have hne : ¬ IntOp.cmpi .eq (BitVec.ofNat 32 (c'.val / 64)) (BitVec.ofNat 32 r.val) = 1#1 := by
      rw [StableHlo.Predicate.cmpi_eq_iff]
      intro he
      have := congrArg BitVec.toNat he
      rw [BitVec.toNat_ofNat, BitVec.toNat_ofNat] at this
      have h1 := c'.isLt
      have h2 := r.isLt
      omega
    rw [eq_zero_of_ne_one hne]
    simp

end Cert.KernelIdeal.Host

end
-- ==== Proof.Spec.lean ====
/-
  What both programs compute, as ONE function of the six argument arrays, index by index over the extended reals.

  The base weight is stored as 4-bit codes `w[n, k]` into the sixteen NF4 levels, with one scale `absmax[n, k / 64]` per block of
  64 consecutive columns: `W[n, k] = level (w[n, k]) · absmax[n, k / 64]`. The result at token `t` and output feature `n` is

      (∑ₖ x[t, k] · W[n, k]  +  bias[n])  +  (∑ᵣ (∑ₖ x[t, k] · A[k, r]) · B[r, n]) · 4

  (the base projection plus the bias, plus the rank-16 adapter scaled by 4). Nothing here mentions a program.
-/
import Idealize.ShloMosaic.PureOps.Ideal
import Idealize.ShloMosaic.Lib.ValueIdx

noncomputable section

open scoped BigOperators

namespace Cert.Spec

open Idealize.ShloMosaic Idealize.ShloMosaic.ValueIdx

/-- The sixteen NF4 levels, increasing from −1 to 1, as f32 words (level 7 is zero). -/
abbrev level : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- A code word is a valid NF4 code: between 0 and 15 as a signed integer. -/
def InRange (c : BitVec 32) : Prop := 0 ≤ c.toInt ∧ c.toInt < 16

/-- The level a code selects. (Total: outside the code range it takes the code modulo 16, a value no statement below
    depends on, every code being in range where it is used.) -/
def nf4 (c : BitVec 32) : EReal := Ideal.ofBits .f32 (level ⟨c.toNat % 16, Nat.mod_lt _ (by decide)⟩)

/-- A valid code is one of the sixteen words `0, …, 15`. -/
theorem InRange.exists_fin {c : BitVec 32} (h : InRange c) : ∃ n : Fin 16, c = BitVec.ofNat 32 n.val := by
  obtain ⟨h0, h1⟩ := h
  have hlt : c.toNat < 16 := by
    have := c.isLt
    rw [BitVec.toInt_eq_toNat_cond] at h0 h1
    split at h0 <;> split at h1 <;> omega
  refine ⟨⟨c.toNat, hlt⟩, BitVec.eq_of_toNat_eq ?_⟩
  rw [BitVec.toNat_ofNat]
  exact (Nat.mod_eq_of_lt (by omega)).symm

/-- The dequantised base weight at row `n`, column `k`: the code's level times its block's scale. -/
def wt (w : IVec ⟨2, ![4096, 4096]⟩ 32) (a : FVec Ideal ⟨2, ![4096, 64]⟩ .f32) (n k : Fin 4096) : EReal :=
  nf4 (w (ix2 n k)) * a (ix2 n (⟨k.val / 64, by omega⟩ : Fin 64))

/-- The low-rank projection of token `t` on adapter direction `r`. -/
def proj (x : FVec Ideal ⟨2, ![8192, 4096]⟩ .f32) (A : FVec Ideal ⟨2, ![4096, 16]⟩ .f32) (t : Fin 8192) (r : Fin 16) : EReal :=
  ∑ k : Fin 4096, x (ix2 t k) * A (ix2 k r)

/-- The result at token `t`, output feature `n`. -/
def outAt (x : FVec Ideal ⟨2, ![8192, 4096]⟩ .f32) (w : IVec ⟨2, ![4096, 4096]⟩ 32) (a : FVec Ideal ⟨2, ![4096, 64]⟩ .f32)
    (b : FVec Ideal ⟨1, ![4096]⟩ .f32) (A : FVec Ideal ⟨2, ![4096, 16]⟩ .f32) (B : FVec Ideal ⟨2, ![16, 4096]⟩ .f32)
    (t : Fin 8192) (n : Fin 4096) : EReal :=
  ((∑ k : Fin 4096, x (ix2 t k) * wt w a n k) + b (ix1 n))
    + (∑ r : Fin 16, proj x A t r * B (ix2 r n)) * Ideal.ofBits .f32 0x40800000#32

/-- The whole result array. -/
def out (x : FVec Ideal ⟨2, ![8192, 4096]⟩ .f32) (w : IVec ⟨2, ![4096, 4096]⟩ 32) (a : FVec Ideal ⟨2, ![4096, 64]⟩ .f32)
    (b : FVec Ideal ⟨1, ![4096]⟩ .f32) (A : FVec Ideal ⟨2, ![4096, 16]⟩ .f32) (B : FVec Ideal ⟨2, ![16, 4096]⟩ .f32) :
    FVec Ideal ⟨2, ![8192, 4096]⟩ .f32 :=
  fun i => outAt x w a b A B (i 0) (i 1)

/-- Contracting a row against a one-hot column picks the row's entry at the hot position: on the extended reals
    `a · 0 = 0` and `a · 1 = a` for every `a`, infinite ones included, so no finiteness is needed. -/
theorem sum_mul_onehot {n : Nat} (f : Fin n → EReal) (r0 : Fin n) :
    ∑ r : Fin n, f r * (if r = r0 then (1 : EReal) else 0) = f r0 := by
  simp [Finset.sum_ite_eq', mul_ite]

end Cert.Spec

end
-- ==== Proof.KernelPieces.lean ====
/-
  What one grid point's body leaves behind, read off the frame's found pieces.

  The output block is always the body's one store: the base product of the token block with the cached weight tile, plus the
  bias row, plus four times the adapter product. At the first token tile of a feature tile the cached weight tile is first
  rebuilt, eight column chunks of 512 at a time, and the product then reads the tile just stored; at the other token tiles
  the tile is what the point before left. Entry `(n, k)` of a rebuilt tile is the level of code `(n, k)` times the scale the
  expansion matrix selects for that column out of the chunk's eight block scales.
-/
import proofs.«403630_j4672924418482_2_alg».proof.Proof.Gen.KernelIdeal.Frame
import proofs.«403630_j4672924418482_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Pieces

open Cert.KernelIdeal Cert.KernelIdeal.Gen Idealize.ShloMosaic Idealize.ShloMosaic.TcCoe Idealize.ShloMosaic.Tactic
open Idealize.ShloMosaic.ValueIdx Idealize.SL.Sem

variable {F : FTy → Type} [FloatOps F]

/-- The zero offsets of a whole two-axis block. -/
theorem off_zero : (![0, 0] : Fin 2 → Nat) = fun _ => 0 := funext fun a => by fin_cases a <;> rfl

/-- A load of a whole buffer after a list of stores reads what the stores left, at every index. -/
theorem readCov_whole {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (L : List (View.Piece Val S e)) :
    v.readCov L (Rect.unit off S.size inb).toLoadRect = View.canon L := by
  rw [View.readCov_eq_canon']
  exact View.ld_unit_zero h inb (View.canon L)

/-- At a first token tile the output block is the body's one payload over the weight tile the same run has just stored. -/
theorem out_A_eq (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x64 .f32) (harg4 : arg4.IsWhole) (arg5 : Memref sig .tc .vmem S8x512 .f32) (harg5 : arg5.IsWhole) (arg6 : Memref sig .tc .vmem S16x512 .bf16) (harg6 : arg6.IsWhole) (arg7 : Memref sig .tc .vmem S1x512 .f32) (harg7 : arg7.IsWhole) (arg8 : Memref sig .tc .vmem S512x16 .bf16) (harg8 : arg8.IsWhole) (arg9 : Memref sig .tc .vmem S512x512 .f32) (harg9 : arg9.IsWhole) (arg10 : Memref sig .tc .vmem S512x4096 .bf16) (harg10 : arg10.IsWhole) (hc0 : cond0_0 i) (x0 : Vec F S512x4096 .bf16) (x1 : Vec F S512x4096 .i32) (x2 : Vec F S512x64 .f32) (x3 : Vec F S8x512 .f32) (x4 : Vec F S16x512 .bf16) (x5 : Vec F S1x512 .f32) (x6 : Vec F S512x16 .bf16) :
    out0_A_7 c i arg2 harg2 arg3 harg3 arg4 harg4 arg5 harg5 arg6 harg6 arg7 harg7 arg8 harg8 arg9 harg9 arg10 harg10 hc0 x0 x1 x2 x3 x4 x5 x6 = k0_pay2 x0 (sout0_A_0 c i arg2 harg2 arg3 harg3 arg4 harg4 arg5 harg5 arg6 harg6 arg7 harg7 arg8 harg8 arg9 harg9 arg10 harg10 hc0 x0 x1 x2 x3 x4 x5 x6) x6 x4 x5 := by
  unfold out0_A_7 sout0_A_0
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6), View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S512x512) off_zero, readCov_whole (S := S512x4096) _ off_zero]
  simp only [View.readAt_eq_ld, Memref.IsWhole.read_unread, View.ld_unit_zero (S := S512x4096) off_zero, View.ld_unit_zero (S := S512x16) off_zero, View.ld_unit_zero (S := S16x512) off_zero, View.ld_unit_zero (S := S1x512) off_zero]

/-- At any other token tile it is the same payload over the weight tile the point before left. -/
theorem out_B_eq (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x64 .f32) (harg4 : arg4.IsWhole) (arg5 : Memref sig .tc .vmem S8x512 .f32) (harg5 : arg5.IsWhole) (arg6 : Memref sig .tc .vmem S16x512 .bf16) (harg6 : arg6.IsWhole) (arg7 : Memref sig .tc .vmem S1x512 .f32) (harg7 : arg7.IsWhole) (arg8 : Memref sig .tc .vmem S512x16 .bf16) (harg8 : arg8.IsWhole) (arg9 : Memref sig .tc .vmem S512x512 .f32) (harg9 : arg9.IsWhole) (arg10 : Memref sig .tc .vmem S512x4096 .bf16) (harg10 : arg10.IsWhole) (hc0 : ¬cond0_0 i) (x0 : Vec F S512x4096 .bf16) (x1 : Vec F S512x4096 .i32) (x2 : Vec F S512x64 .f32) (x3 : Vec F S8x512 .f32) (x4 : Vec F S16x512 .bf16) (x5 : Vec F S1x512 .f32) (x6 : Vec F S512x16 .bf16) (xs0 : Vec F S512x4096 .bf16) :
    out0_B_7 c i arg2 harg2 arg3 harg3 arg4 harg4 arg5 harg5 arg6 harg6 arg7 harg7 arg8 harg8 arg9 harg9 arg10 harg10 hc0 x0 x1 x2 x3 x4 x5 x6 xs0 = k0_pay2 x0 xs0 x6 x4 x5 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero (S := S512x512) off_zero]
  simp only [View.readAt_eq_ld, Memref.IsWhole.read_unread, View.ld_unit_zero (S := S512x4096) off_zero, View.ld_unit_zero (S := S512x16) off_zero, View.ld_unit_zero (S := S16x512) off_zero, View.ld_unit_zero (S := S1x512) off_zero]

/-! ## The rebuilt weight tile at an entry -/

/-- The level chain at one code: starting from level 0, for `i = 1, …, 15` in turn, level `i` wherever `i ≤ code` as signed
    integers; the last such `i` wins, so a code between 0 and 15 selects its own level. -/
def chain (c : BitVec 32) : Ideal .f32 :=
  Scalar.select (IntOp.cmpi .sge c 15#32) (Scalar.ofBits .f32 0x3F800000#32) <|
  Scalar.select (IntOp.cmpi .sge c 14#32) (Scalar.ofBits .f32 0x3F3913B3#32) <|
  Scalar.select (IntOp.cmpi .sge c 13#32) (Scalar.ofBits .f32 0x3F1007AB#32) <|
  Scalar.select (IntOp.cmpi .sge c 12#32) (Scalar.ofBits .f32 0x3EE1A4B8#32) <|
  Scalar.select (IntOp.cmpi .sge c 11#32) (Scalar.ofBits .f32 0x3EAD033A#32) <|
  Scalar.select (IntOp.cmpi .sge c 10#32) (Scalar.ofBits .f32 0x3E7C04DD#32) <|
  Scalar.select (IntOp.cmpi .sge c 9#32) (Scalar.ofBits .f32 0x3E24CAE3#32) <|
  Scalar.select (IntOp.cmpi .sge c 8#32) (Scalar.ofBits .f32 0x3DA2FAFF#32) <|
  Scalar.select (IntOp.cmpi .sge c 7#32) (Scalar.ofBits .f32 0x00000000#32) <|
  Scalar.select (IntOp.cmpi .sge c 6#32) (Scalar.ofBits .f32 0xBDBA7871#32) <|
  Scalar.select (IntOp.cmpi .sge c 5#32) (Scalar.ofBits .f32 0xBE3D353F#32) <|
  Scalar.select (IntOp.cmpi .sge c 4#32) (Scalar.ofBits .f32 0xBE91A24D#32) <|
  Scalar.select (IntOp.cmpi .sge c 3#32) (Scalar.ofBits .f32 0xBECA32A0#32) <|
  Scalar.select (IntOp.cmpi .sge c 2#32) (Scalar.ofBits .f32 0xBF066B30#32) <|
  Scalar.select (IntOp.cmpi .sge c 1#32) (Scalar.ofBits .f32 0xBF3239B1#32) <|
  (Scalar.ofBits .f32 0xBF800000#32 : Ideal .f32)

/-- On a valid code the chain is the code's level: sixteen cases, each by evaluation. -/
theorem chain_of_inRange {c : BitVec 32} (h : Cert.Spec.InRange c) : chain c = Cert.Spec.nf4 c := by
  obtain ⟨n, rfl⟩ := h.exists_fin
  fin_cases n <;> rfl

/-- Row coordinate of the scales operand: the output row. -/
theorem lhs_dot_S512x8_S8x512_S512x512_1_0_0_1_n_n_0 (j : S512x512.Idx) (k : dot_S512x8_S8x512_S512x512_1_0_0_1_n_n.contr.Idx) :
    ((dot_S512x8_S8x512_S512x512_1_0_0_1_n_n.lhsIdx j k 0 : Fin _) : Nat) = (j 0).val := by
  unfold DotDims.lhsIdx
  rw [dif_neg (show ¬(0 : Fin S512x8.rank) ∈ dot_S512x8_S8x512_S512x512_1_0_0_1_n_n.lhsBatch by decide),
    dif_pos (show (0 : Fin S512x8.rank) ∈ dot_S512x8_S8x512_S512x512_1_0_0_1_n_n.lhsNonContracting by decide)]
  rfl

/-- Column coordinate of the scales operand: the contracted position. -/
theorem lhs_dot_S512x8_S8x512_S512x512_1_0_0_1_n_n_1 (j : S512x512.Idx) (k : dot_S512x8_S8x512_S512x512_1_0_0_1_n_n.contr.Idx) :
    ((dot_S512x8_S8x512_S512x512_1_0_0_1_n_n.lhsIdx j k 1 : Fin _) : Nat) = (k ⟨0, by decide⟩).val :=
  dot_S512x8_S8x512_S512x512_1_0_0_1_n_n.lhsIdx_val_of_single (cl := 1) rfl j k

/-- Row coordinate of the expansion operand: the contracted position. -/
theorem rhs_dot_S512x8_S8x512_S512x512_1_0_0_1_n_n_0 (j : S512x512.Idx) (k : dot_S512x8_S8x512_S512x512_1_0_0_1_n_n.contr.Idx) :
    ((dot_S512x8_S8x512_S512x512_1_0_0_1_n_n.rhsIdx j k 0 : Fin _) : Nat) = (k ⟨0, by decide⟩).val :=
  dot_S512x8_S8x512_S512x512_1_0_0_1_n_n.rhsIdx_val_of_single (cr := 0) rfl j k

/-- Column coordinate of the expansion operand: the output column. -/
theorem rhs_dot_S512x8_S8x512_S512x512_1_0_0_1_n_n_1 (j : S512x512.Idx) (k : dot_S512x8_S8x512_S512x512_1_0_0_1_n_n.contr.Idx) :
    ((dot_S512x8_S8x512_S512x512_1_0_0_1_n_n.rhsIdx j k 1 : Fin _) : Nat) = (j 1).val := by
  unfold DotDims.rhsIdx
  rw [dif_neg (show ¬(1 : Fin S8x512.rank) ∈ dot_S512x8_S8x512_S512x512_1_0_0_1_n_n.rhsBatch by decide),
    dif_pos (show (1 : Fin S8x512.rank) ∈ dot_S512x8_S8x512_S512x512_1_0_0_1_n_n.rhsNonContracting by decide)]
  rfl

/-- The scale product at an entry: the row's eight block scales contracted with the expansion matrix's column. -/
theorem scale_expand_apply (scales : FVec Ideal S512x8 .f32) (E : FVec Ideal S8x512 .f32) (n c : Fin 512) :
    matmul dot_S512x8_S8x512_S512x512_1_0_0_1_n_n (some .fp32) scales E (constant S512x512 .f32 0x00000000#32) (ix2 n c)
      = ∑ r : Fin 8, scales (ix2 n r) * E (ix2 r c) := by
  refine (Ideal.matmul_constant_zero_apply _ _ _ _ _).trans ?_
  rw [← Equiv.sum_comp (contrEquiv1 dot_S512x8_S8x512_S512x512_1_0_0_1_n_n 8 rfl rfl).symm]
  refine Finset.sum_congr rfl fun r _ => ?_
  have hk := contrEquiv1_symm_val dot_S512x8_S8x512_S512x512_1_0_0_1_n_n 8 rfl rfl r
  congr 2
  · exact Shape.idx_ext₂ (lhs_dot_S512x8_S8x512_S512x512_1_0_0_1_n_n_0 _ _) ((lhs_dot_S512x8_S8x512_S512x512_1_0_0_1_n_n_1 _ _).trans hk)
  · exact Shape.idx_ext₂ ((rhs_dot_S512x8_S8x512_S512x512_1_0_0_1_n_n_0 _ _).trans hk) (rhs_dot_S512x8_S8x512_S512x512_1_0_0_1_n_n_1 _ _)

/-- Chunk 0's payload at an entry: the chain at the entry's code times the scale product there (the rounding to the
    narrower format is the identity on the extended reals, and the cast keeps the shape). -/
theorem chunk0_apply (E : FVec Ideal S8x512 .f32) (codes : Vec Ideal S512x512 .i32) (scales : Vec Ideal S512x8 .f32)
    (n c : Fin 512) :
    k0_pay5 (F := Ideal) E codes scales (k0_pay4 codes) (ix2 n c)
      = chain (codes (ix2 n c)) * ∑ r : Fin 8, scales (ix2 n r) * E (ix2 r c) := by
  unfold k0_pay5 k0_pay4
  refine (congrFun (shapeCast_self _ _) (ix2 n c)).trans ?_
  exact congrArg (chain (codes (ix2 n c)) * ·) (scale_expand_apply scales E n c)

/-- Chunk 1's payload at an entry: the chain at the entry's code times the scale product there (the rounding to the
    narrower format is the identity on the extended reals, and the cast keeps the shape). -/
theorem chunk1_apply (E : FVec Ideal S8x512 .f32) (codes : Vec Ideal S512x512 .i32) (scales : Vec Ideal S512x8 .f32)
    (n c : Fin 512) :
    k0_pay8 (F := Ideal) E codes scales (k0_pay7 codes (k0_pay6 (F := Ideal))) (ix2 n c)
      = chain (codes (ix2 n c)) * ∑ r : Fin 8, scales (ix2 n r) * E (ix2 r c) := by
  unfold k0_pay8 k0_pay7 k0_pay6
  refine (congrFun (shapeCast_self _ _) (ix2 n c)).trans ?_
  exact congrArg (chain (codes (ix2 n c)) * ·) (scale_expand_apply scales E n c)

/-- Chunk 2's payload at an entry: the chain at the entry's code times the scale product there (the rounding to the
    narrower format is the identity on the extended reals, and the cast keeps the shape). -/
theorem chunk2_apply (E : FVec Ideal S8x512 .f32) (codes : Vec Ideal S512x512 .i32) (scales : Vec Ideal S512x8 .f32)
    (n c : Fin 512) :
    k0_pay11 (F := Ideal) E codes scales (k0_pay10 codes (k0_pay9 codes)) (ix2 n c)
      = chain (codes (ix2 n c)) * ∑ r : Fin 8, scales (ix2 n r) * E (ix2 r c) := by
  unfold k0_pay11 k0_pay10 k0_pay9
  refine (congrFun (shapeCast_self _ _) (ix2 n c)).trans ?_
  exact congrArg (chain (codes (ix2 n c)) * ·) (scale_expand_apply scales E n c)

/-- Chunk 3's payload at an entry: the chain at the entry's code times the scale product there (the rounding to the
    narrower format is the identity on the extended reals, and the cast keeps the shape). -/
theorem chunk3_apply (E : FVec Ideal S8x512 .f32) (codes : Vec Ideal S512x512 .i32) (scales : Vec Ideal S512x8 .f32)
    (n c : Fin 512) :
    k0_pay14 (F := Ideal) E codes scales (k0_pay13 codes (k0_pay12 codes)) (ix2 n c)
      = chain (codes (ix2 n c)) * ∑ r : Fin 8, scales (ix2 n r) * E (ix2 r c) := by
  unfold k0_pay14 k0_pay13 k0_pay12
  refine (congrFun (shapeCast_self _ _) (ix2 n c)).trans ?_
  exact congrArg (chain (codes (ix2 n c)) * ·) (scale_expand_apply scales E n c)

/-- Chunk 4's payload at an entry: the chain at the entry's code times the scale product there (the rounding to the
    narrower format is the identity on the extended reals, and the cast keeps the shape). -/
theorem chunk4_apply (E : FVec Ideal S8x512 .f32) (codes : Vec Ideal S512x512 .i32) (scales : Vec Ideal S512x8 .f32)
    (n c : Fin 512) :
    k0_pay17 (F := Ideal) (k0_pay16 (F := Ideal) E codes scales (k0_pay15 codes)) (ix2 n c)
      = chain (codes (ix2 n c)) * ∑ r : Fin 8, scales (ix2 n r) * E (ix2 r c) := by
  unfold k0_pay17 k0_pay16 k0_pay15
  refine (congrFun (shapeCast_self _ _) (ix2 n c)).trans ?_
  exact congrArg (chain (codes (ix2 n c)) * ·) (scale_expand_apply scales E n c)

/-- Chunk 5's payload at an entry: the chain at the entry's code times the scale product there (the rounding to the
    narrower format is the identity on the extended reals, and the cast keeps the shape). -/
theorem chunk5_apply (E : FVec Ideal S8x512 .f32) (codes : Vec Ideal S512x512 .i32) (scales : Vec Ideal S512x8 .f32)
    (n c : Fin 512) :
    k0_pay19 (F := Ideal) E codes scales (k0_pay18 codes) (ix2 n c)
      = chain (codes (ix2 n c)) * ∑ r : Fin 8, scales (ix2 n r) * E (ix2 r c) := by
  unfold k0_pay19 k0_pay18
  refine (congrFun (shapeCast_self _ _) (ix2 n c)).trans ?_
  exact congrArg (chain (codes (ix2 n c)) * ·) (scale_expand_apply scales E n c)

/-- Chunk 6's payload at an entry: the chain at the entry's code times the scale product there (the rounding to the
    narrower format is the identity on the extended reals, and the cast keeps the shape). -/
theorem chunk6_apply (E : FVec Ideal S8x512 .f32) (codes : Vec Ideal S512x512 .i32) (scales : Vec Ideal S512x8 .f32)
    (n c : Fin 512) :
    k0_pay22 (F := Ideal) E codes scales (k0_pay21 codes (k0_pay20 (F := Ideal))) (ix2 n c)
      = chain (codes (ix2 n c)) * ∑ r : Fin 8, scales (ix2 n r) * E (ix2 r c) := by
  unfold k0_pay22 k0_pay21 k0_pay20
  refine (congrFun (shapeCast_self _ _) (ix2 n c)).trans ?_
  exact congrArg (chain (codes (ix2 n c)) * ·) (scale_expand_apply scales E n c)

/-- Chunk 7's payload at an entry: the chain at the entry's code times the scale product there (the rounding to the
    narrower format is the identity on the extended reals, and the cast keeps the shape). -/
theorem chunk7_apply (E : FVec Ideal S8x512 .f32) (codes : Vec Ideal S512x512 .i32) (scales : Vec Ideal S512x8 .f32)
    (n c : Fin 512) :
    k0_pay1 (F := Ideal) E codes scales (k0_pay24 codes (k0_pay23 codes)) (ix2 n c)
      = chain (codes (ix2 n c)) * ∑ r : Fin 8, scales (ix2 n r) * E (ix2 r c) := by
  unfold k0_pay1 k0_pay24 k0_pay23
  refine (congrFun (shapeCast_self _ _) (ix2 n c)).trans ?_
  exact congrArg (chain (codes (ix2 n c)) * ·) (scale_expand_apply scales E n c)

/-- The rebuilt tile as one function of the row and the column: the chain at the entry's code times the contraction of the
    column's chunk of eight block scales with the expansion matrix's column `k mod 512`. -/
def tile (x1 : Vec Ideal S512x4096 .i32) (x2 : Vec Ideal S512x64 .f32) (x3 : Vec Ideal S8x512 .f32) (n : Fin 512) (k : Fin 4096) :
    Ideal .bf16 :=
  chain (x1 (ix2 n k))
    * ∑ r : Fin 8, x2 (ix2 n (⟨8 * (k.val / 512) + r.val, by omega⟩ : Fin 64)) * x3 (ix2 r (⟨k.val % 512, Nat.mod_lt _ (by decide)⟩ : Fin 512))

/-- A chunk's entry is the tile's entry where the chunk sits: chunk `kk` holds columns `512·kk, …, 512·kk + 511`, its codes
    are the tile's codes there and its eight scales are the block scales `8·kk, …, 8·kk + 7` of the row. -/
theorem tile_of_chunk (x1 : Vec Ideal S512x4096 .i32) (x2 : Vec Ideal S512x64 .f32) (x3 : Vec Ideal S8x512 .f32)
    (kk : Nat) (hkk : kk < 8) (a b : Fin 512) (n : Fin 512) (k : Fin 4096) (hn : n.val = a.val) (hk : k.val = 512 * kk + b.val)
    (codes : Vec Ideal S512x512 .i32) (scales : Vec Ideal S512x8 .f32) (hc : codes (ix2 a b) = x1 (ix2 n k))
    (hs : ∀ r : Fin 8, scales (ix2 a r) = x2 (ix2 n (⟨8 * kk + r.val, by omega⟩ : Fin 64))) :
    chain (codes (ix2 a b)) * ∑ r : Fin 8, scales (ix2 a r) * k0_pay3 (F := Ideal) x3 (ix2 r b) = tile x1 x2 x3 n k := by
  unfold tile
  rw [hc]
  refine congrArg (chain (x1 (ix2 n k)) * ·) (Finset.sum_congr rfl fun r _ => ?_)
  rw [hs r]
  have e1 : (⟨8 * kk + r.val, by omega⟩ : Fin 64) = ⟨8 * (k.val / 512) + r.val, by omega⟩ := Fin.ext (by
    show 8 * kk + r.val = 8 * (k.val / 512) + r.val
    have := b.isLt; omega)
  have e2 : b = (⟨k.val % 512, Nat.mod_lt _ (by decide)⟩ : Fin 512) := Fin.ext (by
    show b.val = k.val % 512
    have := b.isLt; omega)
  rw [e1, ← e2]
  exact congrArg (x2 _ * ·) (congrFun (shapeCast_self x3 _) (ix2 r b))

/-- Entry `(n, k)` of the rebuilt weight tile, for a valid code: the code's level times the contraction of the chunk's eight
    block scales `x2[n, 8·(k / 512) + r]` with column `k mod 512` of the expansion matrix `x3`. -/
theorem scratch_A_apply (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x64 .f32) (harg4 : arg4.IsWhole) (arg5 : Memref sig .tc .vmem S8x512 .f32) (harg5 : arg5.IsWhole) (arg6 : Memref sig .tc .vmem S16x512 .bf16) (harg6 : arg6.IsWhole) (arg7 : Memref sig .tc .vmem S1x512 .f32) (harg7 : arg7.IsWhole) (arg8 : Memref sig .tc .vmem S512x16 .bf16) (harg8 : arg8.IsWhole) (arg9 : Memref sig .tc .vmem S512x512 .f32) (harg9 : arg9.IsWhole) (arg10 : Memref sig .tc .vmem S512x4096 .bf16) (harg10 : arg10.IsWhole) (hc0 : cond0_0 i) (x0 : Vec Ideal S512x4096 .bf16) (x1 : Vec Ideal S512x4096 .i32) (x2 : Vec Ideal S512x64 .f32) (x3 : Vec Ideal S8x512 .f32) (x4 : Vec Ideal S16x512 .bf16) (x5 : Vec Ideal S1x512 .f32) (x6 : Vec Ideal S512x16 .bf16)
    (n : Fin 512) (k : Fin 4096) (hk : Cert.Spec.InRange (x1 (ix2 n k))) :
    sout0_A_0 (F := Ideal) c i arg2 harg2 arg3 harg3 arg4 harg4 arg5 harg5 arg6 harg6 arg7 harg7 arg8 harg8 arg9 harg9 arg10 harg10 hc0 x0 x1 x2 x3 x4 x5 x6 (ix2 n k)
      = Cert.Spec.nf4 (x1 (ix2 n k))
          * ∑ r : Fin 8, x2 (ix2 n (⟨8 * (k.val / 512) + r.val, by omega⟩ : Fin 64)) * x3 (ix2 r (⟨k.val % 512, Nat.mod_lt _ (by decide)⟩ : Fin 512)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, Memref.IsWhole.read_unread, View.ld_unit_zero (S := S8x512) off_zero]
  refine (View.canon_apply_of_pieces (fun y => tile x1 x2 x3 (y 0) (y 1)) _ ?_ (ix2 n k)
    (View.cover_of_tiledL (s := S512x4096) _ S512x512.size (by sl_kernel_rfl) _)).trans ?_
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · intro x
    obtain ⟨a, b, rfl⟩ : ∃ (a b : Fin 512), x = ix2 a b := ⟨x 0, x 1, eq_ix2 x⟩
    refine (chunk7_apply _ _ _ a b).trans (tile_of_chunk x1 x2 x3 7 (by decide) a b _ _ ?_ ?_ _ _ (congrArg x1 (eq_ix2 _)) fun r => ?_)
    · show (0 : Nat) + 1 * a.val = a.val; omega
    · show (3584 : Nat) + 1 * b.val = 512 * 7 + b.val; omega
    · exact congrArg x2 (Shape.idx_ext₂ rfl (by show (56 : Nat) + 1 * r.val = 8 * 7 + r.val; omega))
  · intro x
    obtain ⟨a, b, rfl⟩ : ∃ (a b : Fin 512), x = ix2 a b := ⟨x 0, x 1, eq_ix2 x⟩
    refine (chunk6_apply _ _ _ a b).trans (tile_of_chunk x1 x2 x3 6 (by decide) a b _ _ ?_ ?_ _ _ (congrArg x1 (eq_ix2 _)) fun r => ?_)
    · show (0 : Nat) + 1 * a.val = a.val; omega
    · show (3072 : Nat) + 1 * b.val = 512 * 6 + b.val; omega
    · exact congrArg x2 (Shape.idx_ext₂ rfl (by show (48 : Nat) + 1 * r.val = 8 * 6 + r.val; omega))
  · intro x
    obtain ⟨a, b, rfl⟩ : ∃ (a b : Fin 512), x = ix2 a b := ⟨x 0, x 1, eq_ix2 x⟩
    refine (chunk5_apply _ _ _ a b).trans (tile_of_chunk x1 x2 x3 5 (by decide) a b _ _ ?_ ?_ _ _ (congrArg x1 (eq_ix2 _)) fun r => ?_)
    · show (0 : Nat) + 1 * a.val = a.val; omega
    · show (2560 : Nat) + 1 * b.val = 512 * 5 + b.val; omega
    · exact congrArg x2 (Shape.idx_ext₂ rfl (by show (40 : Nat) + 1 * r.val = 8 * 5 + r.val; omega))
  · intro x
    obtain ⟨a, b, rfl⟩ : ∃ (a b : Fin 512), x = ix2 a b := ⟨x 0, x 1, eq_ix2 x⟩
    refine (chunk4_apply _ _ _ a b).trans (tile_of_chunk x1 x2 x3 4 (by decide) a b _ _ ?_ ?_ _ _ (congrArg x1 (eq_ix2 _)) fun r => ?_)
    · show (0 : Nat) + 1 * a.val = a.val; omega
    · show (2048 : Nat) + 1 * b.val = 512 * 4 + b.val; omega
    · exact congrArg x2 (Shape.idx_ext₂ rfl (by show (32 : Nat) + 1 * r.val = 8 * 4 + r.val; omega))
  · intro x
    obtain ⟨a, b, rfl⟩ : ∃ (a b : Fin 512), x = ix2 a b := ⟨x 0, x 1, eq_ix2 x⟩
    refine (chunk3_apply _ _ _ a b).trans (tile_of_chunk x1 x2 x3 3 (by decide) a b _ _ ?_ ?_ _ _ (congrArg x1 (eq_ix2 _)) fun r => ?_)
    · show (0 : Nat) + 1 * a.val = a.val; omega
    · show (1536 : Nat) + 1 * b.val = 512 * 3 + b.val; omega
    · exact congrArg x2 (Shape.idx_ext₂ rfl (by show (24 : Nat) + 1 * r.val = 8 * 3 + r.val; omega))
  · intro x
    obtain ⟨a, b, rfl⟩ : ∃ (a b : Fin 512), x = ix2 a b := ⟨x 0, x 1, eq_ix2 x⟩
    refine (chunk2_apply _ _ _ a b).trans (tile_of_chunk x1 x2 x3 2 (by decide) a b _ _ ?_ ?_ _ _ (congrArg x1 (eq_ix2 _)) fun r => ?_)
    · show (0 : Nat) + 1 * a.val = a.val; omega
    · show (1024 : Nat) + 1 * b.val = 512 * 2 + b.val; omega
    · exact congrArg x2 (Shape.idx_ext₂ rfl (by show (16 : Nat) + 1 * r.val = 8 * 2 + r.val; omega))
  · intro x
    obtain ⟨a, b, rfl⟩ : ∃ (a b : Fin 512), x = ix2 a b := ⟨x 0, x 1, eq_ix2 x⟩
    refine (chunk1_apply _ _ _ a b).trans (tile_of_chunk x1 x2 x3 1 (by decide) a b _ _ ?_ ?_ _ _ (congrArg x1 (eq_ix2 _)) fun r => ?_)
    · show (0 : Nat) + 1 * a.val = a.val; omega
    · show (512 : Nat) + 1 * b.val = 512 * 1 + b.val; omega
    · exact congrArg x2 (Shape.idx_ext₂ rfl (by show (8 : Nat) + 1 * r.val = 8 * 1 + r.val; omega))
  · intro x
    obtain ⟨a, b, rfl⟩ : ∃ (a b : Fin 512), x = ix2 a b := ⟨x 0, x 1, eq_ix2 x⟩
    refine (chunk0_apply _ _ _ a b).trans (tile_of_chunk x1 x2 x3 0 (by decide) a b _ _ ?_ ?_ _ _ (congrArg x1 (eq_ix2 _)) fun r => ?_)
    · show (0 : Nat) + 1 * a.val = a.val; omega
    · show (0 : Nat) + 1 * b.val = 512 * 0 + b.val; omega
    · exact congrArg x2 (Shape.idx_ext₂ rfl (by show (0 : Nat) + 1 * r.val = 8 * 0 + r.val; omega))
  · show chain (x1 (ix2 n k)) * _ = _
    rw [chain_of_inRange hk]

end Cert.KernelIdeal.Pieces

end
-- ==== Proof.KernelPayload.lean ====
/-
  The body's output payload read at one entry of the block, over the extended reals: the base product row by row of the
  token block against the weight tile (both contracted along their 4096 columns), plus the bias entry, plus four times the
  rank-16 adapter product.
-/
import proofs.«403630_j4672924418482_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The base product: both operands contracted along their columns

The dimension numbers contract axis 1 of the left operand with axis 1 of the right one; axis 0 of each is free, the left
one's giving the result's row and the right one's the result's column. So at result entry `(p, q)` and contraction position
`k` the left operand is read at `(p, k)` and the right one at `(q, k)`. -/

/-- The left operand's row is the result's row. -/
theorem lhs_dot_S512x4096_S512x4096_S512x512_1_1_0_0_n_n_0 (p q : Fin 512)
    (k : dot_S512x4096_S512x4096_S512x512_1_1_0_0_n_n.contr.Idx) :
    (dot_S512x4096_S512x4096_S512x512_1_1_0_0_n_n.lhsIdx (ix2 p q) k 0).val = p.val := by
  simp [DotDims.lhsIdx, dot_S512x4096_S512x4096_S512x512_1_1_0_0_n_n]
  rfl

/-- The left operand's column is the contraction position. -/
theorem lhs_dot_S512x4096_S512x4096_S512x512_1_1_0_0_n_n_1 (p q : Fin 512)
    (k : dot_S512x4096_S512x4096_S512x512_1_1_0_0_n_n.contr.Idx) :
    (dot_S512x4096_S512x4096_S512x512_1_1_0_0_n_n.lhsIdx (ix2 p q) k 1).val = (k ⟨0, by decide⟩).val :=
  DotDims.lhsIdx_val_of_single _ rfl _ _

/-- The right operand's row is the result's column. -/
theorem rhs_dot_S512x4096_S512x4096_S512x512_1_1_0_0_n_n_0 (p q : Fin 512)
    (k : dot_S512x4096_S512x4096_S512x512_1_1_0_0_n_n.contr.Idx) :
    (dot_S512x4096_S512x4096_S512x512_1_1_0_0_n_n.rhsIdx (ix2 p q) k 0).val = q.val := by
  simp [DotDims.rhsIdx, dot_S512x4096_S512x4096_S512x512_1_1_0_0_n_n]
  rfl

/-- The right operand's column is the contraction position. -/
theorem rhs_dot_S512x4096_S512x4096_S512x512_1_1_0_0_n_n_1 (p q : Fin 512)
    (k : dot_S512x4096_S512x4096_S512x512_1_1_0_0_n_n.contr.Idx) :
    (dot_S512x4096_S512x4096_S512x512_1_1_0_0_n_n.rhsIdx (ix2 p q) k 1).val = (k ⟨0, by decide⟩).val :=
  DotDims.rhsIdx_val_of_single _ rfl _ _

/-- The base product's contraction sum, re-indexed by the contracted column: `∑ₖ A[p, k] · W[q, k]`. -/
theorem sum_dot_S512x4096_S512x4096_S512x512_1_1_0_0_n_n (A W : FVec Ideal S512x4096 .bf16) (p q : Fin 512) :
    (∑ k : dot_S512x4096_S512x4096_S512x512_1_1_0_0_n_n.contr.Idx,
        A (dot_S512x4096_S512x4096_S512x512_1_1_0_0_n_n.lhsIdx (ix2 p q) k)
          * W (dot_S512x4096_S512x4096_S512x512_1_1_0_0_n_n.rhsIdx (ix2 p q) k))
      = ∑ k : Fin 4096, A (ix2 p k) * W (ix2 q k) := by
  rw [← Equiv.sum_comp (contrEquiv1 dot_S512x4096_S512x4096_S512x512_1_1_0_0_n_n 4096 rfl rfl).symm]
  refine Finset.sum_congr rfl fun c _ => ?_
  have hc := contrEquiv1_symm_val dot_S512x4096_S512x4096_S512x512_1_1_0_0_n_n 4096 rfl rfl c
  have hl : dot_S512x4096_S512x4096_S512x512_1_1_0_0_n_n.lhsIdx (ix2 p q)
      ((contrEquiv1 dot_S512x4096_S512x4096_S512x512_1_1_0_0_n_n 4096 rfl rfl).symm c) = ix2 p c := by
    funext ax; apply Fin.ext
    match ax with
    | ⟨0, _⟩ => exact lhs_dot_S512x4096_S512x4096_S512x512_1_1_0_0_n_n_0 _ _ _
    | ⟨1, _⟩ => exact (lhs_dot_S512x4096_S512x4096_S512x512_1_1_0_0_n_n_1 _ _ _).trans hc
  have hr : dot_S512x4096_S512x4096_S512x512_1_1_0_0_n_n.rhsIdx (ix2 p q)
      ((contrEquiv1 dot_S512x4096_S512x4096_S512x512_1_1_0_0_n_n 4096 rfl rfl).symm c) = ix2 q c := by
    funext ax; apply Fin.ext
    match ax with
    | ⟨0, _⟩ => exact rhs_dot_S512x4096_S512x4096_S512x512_1_1_0_0_n_n_0 _ _ _
    | ⟨1, _⟩ => exact (rhs_dot_S512x4096_S512x4096_S512x512_1_1_0_0_n_n_1 _ _ _).trans hc
  rw [hl, hr]

/-! ## The adapter product: rows of the left operand against columns of the right one

The dimension numbers contract axis 1 of the left operand with axis 0 of the right one. At result entry `(p, q)` and
contraction position `r` the left operand is read at `(p, r)` and the right one at `(r, q)`. -/

/-- The left operand's row is the result's row. -/
theorem lhs_dot_S512x16_S16x512_S512x512_1_0_0_1_n_n_0 (p q : Fin 512)
    (k : dot_S512x16_S16x512_S512x512_1_0_0_1_n_n.contr.Idx) :
    (dot_S512x16_S16x512_S512x512_1_0_0_1_n_n.lhsIdx (ix2 p q) k 0).val = p.val := by
  simp [DotDims.lhsIdx, dot_S512x16_S16x512_S512x512_1_0_0_1_n_n]
  rfl

/-- The left operand's column is the contraction position. -/
theorem lhs_dot_S512x16_S16x512_S512x512_1_0_0_1_n_n_1 (p q : Fin 512)
    (k : dot_S512x16_S16x512_S512x512_1_0_0_1_n_n.contr.Idx) :
    (dot_S512x16_S16x512_S512x512_1_0_0_1_n_n.lhsIdx (ix2 p q) k 1).val = (k ⟨0, by decide⟩).val :=
  DotDims.lhsIdx_val_of_single _ rfl _ _

/-- The right operand's row is the contraction position. -/
theorem rhs_dot_S512x16_S16x512_S512x512_1_0_0_1_n_n_0 (p q : Fin 512)
    (k : dot_S512x16_S16x512_S512x512_1_0_0_1_n_n.contr.Idx) :
    (dot_S512x16_S16x512_S512x512_1_0_0_1_n_n.rhsIdx (ix2 p q) k 0).val = (k ⟨0, by decide⟩).val :=
  DotDims.rhsIdx_val_of_single _ rfl _ _

/-- The right operand's column is the result's column. -/
theorem rhs_dot_S512x16_S16x512_S512x512_1_0_0_1_n_n_1 (p q : Fin 512)
    (k : dot_S512x16_S16x512_S512x512_1_0_0_1_n_n.contr.Idx) :
    (dot_S512x16_S16x512_S512x512_1_0_0_1_n_n.rhsIdx (ix2 p q) k 1).val = q.val := by
  simp [DotDims.rhsIdx, dot_S512x16_S16x512_S512x512_1_0_0_1_n_n]
  rfl

/-- The adapter product's contraction sum, re-indexed by the rank coordinate: `∑ᵣ U[p, r] · V[r, q]`. -/
theorem sum_dot_S512x16_S16x512_S512x512_1_0_0_1_n_n (A : FVec Ideal S512x16 .bf16) (B : FVec Ideal S16x512 .bf16)
    (p q : Fin 512) :
    (∑ k : dot_S512x16_S16x512_S512x512_1_0_0_1_n_n.contr.Idx,
        A (dot_S512x16_S16x512_S512x512_1_0_0_1_n_n.lhsIdx (ix2 p q) k)
          * B (dot_S512x16_S16x512_S512x512_1_0_0_1_n_n.rhsIdx (ix2 p q) k))
      = ∑ r : Fin 16, A (ix2 p r) * B (ix2 r q) := by
  rw [← Equiv.sum_comp (contrEquiv1 dot_S512x16_S16x512_S512x512_1_0_0_1_n_n 16 rfl rfl).symm]
  refine Finset.sum_congr rfl fun c _ => ?_
  have hc := contrEquiv1_symm_val dot_S512x16_S16x512_S512x512_1_0_0_1_n_n 16 rfl rfl c
  have hl : dot_S512x16_S16x512_S512x512_1_0_0_1_n_n.lhsIdx (ix2 p q)
      ((contrEquiv1 dot_S512x16_S16x512_S512x512_1_0_0_1_n_n 16 rfl rfl).symm c) = ix2 p c := by
    funext ax; apply Fin.ext
    match ax with
    | ⟨0, _⟩ => exact lhs_dot_S512x16_S16x512_S512x512_1_0_0_1_n_n_0 _ _ _
    | ⟨1, _⟩ => exact (lhs_dot_S512x16_S16x512_S512x512_1_0_0_1_n_n_1 _ _ _).trans hc
  have hr : dot_S512x16_S16x512_S512x512_1_0_0_1_n_n.rhsIdx (ix2 p q)
      ((contrEquiv1 dot_S512x16_S16x512_S512x512_1_0_0_1_n_n 16 rfl rfl).symm c) = ix2 c q := by
    funext ax; apply Fin.ext
    match ax with
    | ⟨0, _⟩ => exact (rhs_dot_S512x16_S16x512_S512x512_1_0_0_1_n_n_0 _ _ _).trans hc
    | ⟨1, _⟩ => exact rhs_dot_S512x16_S16x512_S512x512_1_0_0_1_n_n_1 _ _ _
  rw [hl, hr]

/-! ## The payload at an entry -/

/-- Entry `(p, q)` of the output payload. -/
theorem pay2_apply (v3 : Vec Ideal S512x4096 .bf16) (v5 : Vec Ideal S512x4096 .bf16) (v7 : Vec Ideal S512x16 .bf16)
    (v9 : Vec Ideal S16x512 .bf16) (v12 : Vec Ideal S1x512 .f32) (p q : Fin 512) :
    k0_pay2 (F := Ideal) v3 v5 v7 v9 v12 (ix2 p q)
      = ((∑ k : Fin 4096, v3 (ix2 p k) * v5 (ix2 q k)) + v12 (ix2 (0 : Fin 1) q))
          + (∑ r : Fin 16, v7 (ix2 p r) * v9 (ix2 r q)) * Ideal.ofBits .f32 0x40800000#32 := by
  unfold k0_pay2
  -- the four shape casts are to the operand's own shape
  simp only [shapeCast_self]
  -- the sums, the product and the two splats read entry by entry; the bias row reads its one row at column `q`
  rw [addf_apply, addf_apply, mulf_apply, broadcast_apply, broadcastTo_1b_ab_apply]
  -- each block product into the zero splat is its contraction sum, re-indexed by the contracted coordinate
  simp only [matmul]
  rw [Ideal.matmul_constant_zero_apply, Ideal.matmul_constant_zero_apply,
    sum_dot_S512x4096_S512x4096_S512x512_1_1_0_0_n_n, sum_dot_S512x16_S16x512_S512x512_1_0_0_1_n_n]
  rfl

end Cert.KernelIdeal.Payload

end
-- ==== Proof.KernelBlocks.lean ====
/-
  From one grid point's blocks to the whole result array.

  The grid has 8 feature tiles (outer) and 16 token tiles (inner): point `t` is token tile `t mod 16` of feature tile
  `t / 16`. Its blocks are rows `512·(t mod 16) …` of the tokens and of the low-rank projection, rows `512·(t / 16) …` of
  the codes and of the block scales, columns `512·(t / 16) …` of the bias row and of the second adapter factor, and the
  whole expansion matrix. Three steps. (1) The cached weight tile after point `t` is the dequantised weight of feature
  tile `t / 16`: rebuilt at a tile's first point — where the contraction of the chunk's eight block scales with the one-hot
  expansion column picks the scale of block `k / 64` — and carried unchanged along the tile's other fifteen points.
  (2) Every point's output block is therefore the block of ONE function of the arguments, the specification. (3) The
  128 output blocks tile the result array, so the array ends as the specification.
-/
import proofs.«403630_j4672924418482_2_alg».proof.Proof.Gen.KernelIdeal.Value
import proofs.«403630_j4672924418482_2_alg».proof.Proof.KernelArrays
import proofs.«403630_j4672924418482_2_alg».proof.Proof.KernelHost
import proofs.«403630_j4672924418482_2_alg».proof.Proof.KernelPieces
import proofs.«403630_j4672924418482_2_alg».proof.Proof.KernelPayload
import proofs.«403630_j4672924418482_2_alg».proof.Proof.Spec
import Idealize.ShloMosaic.Lib.ValueIdx
import Idealize.ShloMosaic.Lib.Pipeline.Value

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem N128 : cfg0.N = 128 := N_0

/-- Where each window's block sits at point `t`, decided over the 128 points: token-tile windows move with `t mod 16`,
    feature-tile windows with `t / 16`, the expansion matrix not at all. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val / 16
    ∧ win0_5.index t (0 : Fin 2) = 0 ∧ win0_5.index t (1 : Fin 2) = t.val / 16
    ∧ win0_6.index t (0 : Fin 2) = t.val % 16 ∧ win0_6.index t (1 : Fin 2) = 0
    ∧ win0_7.index t (0 : Fin 2) = t.val % 16 ∧ win0_7.index t (1 : Fin 2) = t.val / 16 :=
  (by decide +kernel : ∀ t : Fin grid0.N, _)

/-! ## The point's seven input blocks, at their literal types -/

abbrev b0 (c : Dev nD) (t : Fin cfg0.N) : Vec Ideal S512x4096 .bf16 := iblk m c 0 t
abbrev b1 (c : Dev nD) (t : Fin cfg0.N) : Vec Ideal S512x4096 .i32 := iblk m c 1 t
abbrev b2 (c : Dev nD) (t : Fin cfg0.N) : Vec Ideal S512x64 .f32 := iblk m c 2 t
abbrev b3 (c : Dev nD) (t : Fin cfg0.N) : Vec Ideal S8x512 .f32 := iblk m c 3 t
abbrev b4 (c : Dev nD) (t : Fin cfg0.N) : Vec Ideal S16x512 .bf16 := iblk m c 4 t
abbrev b5 (c : Dev nD) (t : Fin cfg0.N) : Vec Ideal S1x512 .f32 := iblk m c 5 t
abbrev b6 (c : Dev nD) (t : Fin cfg0.N) : Vec Ideal S512x16 .bf16 := iblk m c 6 t

/-- The first row of token tile `t mod 16` plus `p` is a row of the token matrix. -/
theorem row_lt (t : Fin cfg0.N) (p : Fin 512) : 512 * (t.val % 16) + p.val < 8192 := by omega
/-- The first row of feature tile `t / 16` plus `q` is a row of the weight. -/
theorem col_lt (t : Fin cfg0.N) (q : Fin 512) : 512 * (t.val / 16) + q.val < 4096 := by
  have := t.isLt; have := N128; omega

/-- The token block: rows of token tile `t mod 16`. -/
theorem b0_apply (c : Dev nD) (t : Fin cfg0.N) (p : Fin 512) (k : Fin 4096) :
    b0 m c t (ix2 p k) = Arr.e0 m c (ix2 (⟨512 * (t.val % 16) + p.val, row_lt t p⟩ : Fin 8192) k) := by
  obtain ⟨h0, h1, -⟩ := idx_facts t
  show Arr.e0 m c (((cfg0.win 0).blk t).view.emb (ix2 p k)) = _
  refine congrArg (Arr.e0 m c) (funext fun a => Fin.ext ?_)
  match a with
  | ⟨0, _⟩ => show win0_0.index t (0 : Fin 2) * 512 + 1 * p.val = 512 * (t.val % 16) + p.val; omega
  | ⟨1, _⟩ => show win0_0.index t (1 : Fin 2) * 4096 + 1 * k.val = k.val; omega

/-- The code block: rows of feature tile `t / 16`. -/
theorem b1_apply (c : Dev nD) (t : Fin cfg0.N) (q : Fin 512) (k : Fin 4096) :
    b1 m c t (ix2 q k) = Arr.e1 m c (ix2 (⟨512 * (t.val / 16) + q.val, col_lt t q⟩ : Fin 4096) k) := by
  obtain ⟨-, -, h0, h1, -⟩ := idx_facts t
  show Arr.e1 m c (((cfg0.win 1).blk t).view.emb (ix2 q k)) = _
  refine congrArg (Arr.e1 m c) (funext fun a => Fin.ext ?_)
  match a with
  | ⟨0, _⟩ => show win0_1.index t (0 : Fin 2) * 512 + 1 * q.val = 512 * (t.val / 16) + q.val; omega
  | ⟨1, _⟩ => show win0_1.index t (1 : Fin 2) * 4096 + 1 * k.val = k.val; omega

/-- The scale block: rows of feature tile `t / 16`. -/
theorem b2_apply (c : Dev nD) (t : Fin cfg0.N) (q : Fin 512) (s : Fin 64) :
    b2 m c t (ix2 q s) = Arr.e2 m c (ix2 (⟨512 * (t.val / 16) + q.val, col_lt t q⟩ : Fin 4096) s) := by
  obtain ⟨-, -, -, -, h0, h1, -⟩ := idx_facts t
  show Arr.e2 m c (((cfg0.win 2).blk t).view.emb (ix2 q s)) = _
  refine congrArg (Arr.e2 m c) (funext fun a => Fin.ext ?_)
  match a with
  | ⟨0, _⟩ => show win0_2.index t (0 : Fin 2) * 512 + 1 * q.val = 512 * (t.val / 16) + q.val; omega
  | ⟨1, _⟩ => show win0_2.index t (1 : Fin 2) * 64 + 1 * s.val = s.val; omega

/-- The expansion block is the whole expansion matrix. -/
theorem b3_apply (c : Dev nD) (t : Fin cfg0.N) (r : Fin 8) (j : Fin 512) :
    b3 m c t (ix2 r j) = Arr.e3 m c (ix2 r j) := by
  obtain ⟨-, -, -, -, -, -, h0, h1, -⟩ := idx_facts t
  show Arr.e3 m c (((cfg0.win 3).blk t).view.emb (ix2 r j)) = _
  refine congrArg (Arr.e3 m c) (funext fun a => Fin.ext ?_)
  match a with
  | ⟨0, _⟩ => show win0_3.index t (0 : Fin 2) * 8 + 1 * r.val = r.val; omega
  | ⟨1, _⟩ => show win0_3.index t (1 : Fin 2) * 512 + 1 * j.val = j.val; omega

/-- The second adapter factor's block: columns of feature tile `t / 16`. -/
theorem b4_apply (c : Dev nD) (t : Fin cfg0.N) (r : Fin 16) (q : Fin 512) :
    b4 m c t (ix2 r q) = Arr.e4 m c (ix2 r (⟨512 * (t.val / 16) + q.val, col_lt t q⟩ : Fin 4096)) := by
  obtain ⟨-, -, -, -, -, -, -, -, h0, h1, -⟩ := idx_facts t
  show Arr.e4 m c (((cfg0.win 4).blk t).view.emb (ix2 r q)) = _
  refine congrArg (Arr.e4 m c) (funext fun a => Fin.ext ?_)
  match a with
  | ⟨0, _⟩ => show win0_4.index t (0 : Fin 2) * 16 + 1 * r.val = r.val; omega
  | ⟨1, _⟩ => show win0_4.index t (1 : Fin 2) * 512 + 1 * q.val = 512 * (t.val / 16) + q.val; omega

/-- The bias block: columns of feature tile `t / 16` of the bias row. -/
theorem b5_apply (c : Dev nD) (t : Fin cfg0.N) (q : Fin 512) :
    b5 m c t (ix2 (0 : Fin 1) q) = Arr.e5 m c (ix2 (0 : Fin 1) (⟨512 * (t.val / 16) + q.val, col_lt t q⟩ : Fin 4096)) := by
  obtain ⟨-, -, -, -, -, -, -, -, -, -, h0, h1, -⟩ := idx_facts t
  show Arr.e5 m c (((cfg0.win 5).blk t).view.emb (ix2 (0 : Fin 1) q)) = _
  refine congrArg (Arr.e5 m c) (funext fun a => Fin.ext ?_)
  match a with
  | ⟨0, _⟩ => show win0_5.index t (0 : Fin 2) * 1 + 1 * 0 = 0; omega
  | ⟨1, _⟩ => show win0_5.index t (1 : Fin 2) * 512 + 1 * q.val = 512 * (t.val / 16) + q.val; omega

/-- The projection block: rows of token tile `t mod 16`. -/
theorem b6_apply (c : Dev nD) (t : Fin cfg0.N) (p : Fin 512) (r : Fin 16) :
    b6 m c t (ix2 p r) = Arr.e6 m c (ix2 (⟨512 * (t.val % 16) + p.val, row_lt t p⟩ : Fin 8192) r) := by
  obtain ⟨-, -, -, -, -, -, -, -, -, -, -, -, h0, h1, -⟩ := idx_facts t
  show Arr.e6 m c (((cfg0.win 6).blk t).view.emb (ix2 p r)) = _
  refine congrArg (Arr.e6 m c) (funext fun a => Fin.ext ?_)
  match a with
  | ⟨0, _⟩ => show win0_6.index t (0 : Fin 2) * 512 + 1 * p.val = 512 * (t.val % 16) + p.val; omega
  | ⟨1, _⟩ => show win0_6.index t (1 : Fin 2) * 16 + 1 * r.val = r.val; omega

/-! ## The cached weight tile -/

/-- At a feature tile's first point the rebuilt tile is the dequantised weight of that tile: the code's level times the
    scale of the code's block of 64 columns, which is what contracting the chunk's eight scales with the one-hot expansion
    column picks (`8·(k / 512) + (k mod 512) / 64 = k / 64`). -/
theorem tile_first (hw : ∀ (c : Dev nD) i, Cert.Spec.InRange (Arr.w m c i)) (c : Dev nD) (t : Fin cfg0.N)
    (h0 : t.val % 16 = 0) (q : Fin 512) (k : Fin 4096) :
    (outsAt0 m c t.val t.isLt).2 (ix2 q k)
      = Cert.Spec.wt (Arr.w m c) (Arr.a m c) ⟨512 * (t.val / 16) + q.val, col_lt t q⟩ k := by
  rw [outsAt0_A m c t h0]
  dsimp only
  refine (Pieces.scratch_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (b0 m c t) (b1 m c t) (b2 m c t) (b3 m c t) (b4 m c t) (b5 m c t) (b6 m c t) q k ?_).trans ?_
  · rw [b1_apply m c t q k, Host.e1_eq]; exact hw c _
  · rw [b1_apply m c t q k, Host.e1_eq]
    unfold Cert.Spec.wt
    refine congrArg _ ?_
    have hk := k.isLt
    have hterm : ∀ r : Fin 8,
        b2 m c t (ix2 q (⟨8 * (k.val / 512) + r.val, by omega⟩ : Fin 64)) * b3 m c t (ix2 r (⟨k.val % 512, Nat.mod_lt _ (by decide)⟩ : Fin 512))
          = Arr.a m c (ix2 (⟨512 * (t.val / 16) + q.val, col_lt t q⟩ : Fin 4096) (⟨8 * (k.val / 512) + r.val, by omega⟩ : Fin 64))
              * (if r = (⟨k.val % 512 / 64, by omega⟩ : Fin 8) then (1 : EReal) else 0) := by
      intro r
      rw [b2_apply m c t q _, Host.e2_eq, b3_apply m c t r _, Host.e3_apply]
      refine congrArg _ (if_congr ?_ rfl rfl)
      constructor
      · intro h; exact Fin.ext h.symm
      · intro h; exact (congrArg Fin.val h).symm
    rw [Finset.sum_congr rfl (fun r _ => hterm r),
      Cert.Spec.sum_mul_onehot (fun r : Fin 8 => Arr.a m c (ix2 (⟨512 * (t.val / 16) + q.val, col_lt t q⟩ : Fin 4096) (⟨8 * (k.val / 512) + r.val, by omega⟩ : Fin 64))) ⟨k.val % 512 / 64, by omega⟩]
    refine congrArg (Arr.a m c) (congrArg (ix2 _) (Fin.ext ?_))
    show 8 * (k.val / 512) + k.val % 512 / 64 = k.val / 64
    omega

/-- After every point the cached tile is the dequantised weight of the point's feature tile: rebuilt at the tile's first
    point, unchanged along the others. -/
theorem tile_inv (hw : ∀ (c : Dev nD) i, Cert.Spec.InRange (Arr.w m c i)) (c : Dev nD) :
    ∀ (n : ℕ) (hn : n < cfg0.N) (q : Fin 512) (k : Fin 4096),
      (outsAt0 m c n hn).2 (ix2 q k)
        = Cert.Spec.wt (Arr.w m c) (Arr.a m c) ⟨512 * (n / 16) + q.val, col_lt ⟨n, hn⟩ q⟩ k := by
  intro n
  induction n with
  | zero => intro hn q k; exact tile_first m hw c ⟨0, hn⟩ rfl q k
  | succ n ih =>
    intro hn q k
    by_cases h0 : (n + 1) % 16 = 0
    · exact tile_first m hw c ⟨n + 1, hn⟩ h0 q k
    · rw [outsAt0_B m c ⟨n + 1, hn⟩ h0]
      dsimp only
      show (outsAt0 m c n (Nat.lt_of_succ_lt hn)).2 (ix2 q k) = _
      rw [ih (Nat.lt_of_succ_lt hn) q k]
      refine congrArg (fun r => Cert.Spec.wt (Arr.w m c) (Arr.a m c) r k) (Fin.ext ?_)
      show 512 * (n / 16) + q.val = 512 * ((n + 1) / 16) + q.val
      omega

/-! ## The output block -/

/-- Every point's output block is the one payload over the point's blocks and a weight tile that is the dequantised
    weight of the point's feature tile. -/
theorem out_block (hw : ∀ (c : Dev nD) i, Cert.Spec.InRange (Arr.w m c i)) (c : Dev nD) (t : Fin cfg0.N) :
    ∃ Wt : Vec Ideal S512x4096 .bf16,
      (outsAt0 m c t.val t.isLt).1 = k0_pay2 (b0 m c t) Wt (b6 m c t) (b4 m c t) (b5 m c t)
      ∧ ∀ (q : Fin 512) (k : Fin 4096), Wt (ix2 q k) = Cert.Spec.wt (Arr.w m c) (Arr.a m c) ⟨512 * (t.val / 16) + q.val, col_lt t q⟩ k := by
  by_cases h0 : t.val % 16 = 0
  · refine ⟨(outsAt0 m c t.val t.isLt).2, ?_, fun q k => tile_inv m hw c t.val t.isLt q k⟩
    rw [outsAt0_A m c t h0]
    dsimp only
    exact Pieces.out_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (b0 m c t) (b1 m c t) (b2 m c t) (b3 m c t) (b4 m c t) (b5 m c t) (b6 m c t)
  · have hpos : 0 < t.val := Nat.pos_of_ne_zero (fun h => h0 (by rw [h]))
    have hlt : t.val - 1 < cfg0.N := Nat.lt_of_le_of_lt (Nat.sub_le _ _) t.isLt
    refine ⟨(outsAt0 m c (t.val - 1) hlt).2, ?_, fun q k => ?_⟩
    · rw [outsAt0_B m c t h0]
      dsimp only
      exact Pieces.out_B_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (b0 m c t) (b1 m c t) (b2 m c t) (b3 m c t) (b4 m c t) (b5 m c t) (b6 m c t) _
    · rw [tile_inv m hw c (t.val - 1) hlt q k]
      refine congrArg (fun r => Cert.Spec.wt (Arr.w m c) (Arr.a m c) r k) (Fin.ext ?_)
      show 512 * ((t.val - 1) / 16) + q.val = 512 * (t.val / 16) + q.val
      omega

/-- Entry `(p, q)` of such a payload is the specification at token `512·(t mod 16) + p`, feature `512·(t / 16) + q`. -/
theorem out_entry (c : Dev nD) (t : Fin cfg0.N) (Wt : Vec Ideal S512x4096 .bf16)
    (hW : ∀ (q : Fin 512) (k : Fin 4096), Wt (ix2 q k) = Cert.Spec.wt (Arr.w m c) (Arr.a m c) ⟨512 * (t.val / 16) + q.val, col_lt t q⟩ k)
    (p q : Fin 512) :
    k0_pay2 (b0 m c t) Wt (b6 m c t) (b4 m c t) (b5 m c t) (ix2 p q)
      = Cert.Spec.outAt (Arr.x m c) (Arr.w m c) (Arr.a m c) (Arr.b m c) (Arr.lA m c) (Arr.lB m c)
          ⟨512 * (t.val % 16) + p.val, row_lt t p⟩ ⟨512 * (t.val / 16) + q.val, col_lt t q⟩ := by
  have h1 : (∑ k : Fin 4096, b0 m c t (ix2 p k) * Wt (ix2 q k))
      = ∑ k : Fin 4096, Arr.x m c (ix2 (⟨512 * (t.val % 16) + p.val, row_lt t p⟩ : Fin 8192) k)
          * Cert.Spec.wt (Arr.w m c) (Arr.a m c) ⟨512 * (t.val / 16) + q.val, col_lt t q⟩ k :=
    Finset.sum_congr rfl fun k _ => by rw [b0_apply m c t p k, hW q k, Host.e0_eq]
  have h2 : b5 m c t (ix2 (0 : Fin 1) q) = Arr.b m c (ix1 (⟨512 * (t.val / 16) + q.val, col_lt t q⟩ : Fin 4096)) := by
    rw [b5_apply m c t q, Host.e5_apply]
  have h3 : (∑ r : Fin 16, b6 m c t (ix2 p r) * b4 m c t (ix2 r q))
      = ∑ r : Fin 16, (∑ k : Fin 4096, Arr.x m c (ix2 (⟨512 * (t.val % 16) + p.val, row_lt t p⟩ : Fin 8192) k) * Arr.lA m c (ix2 k r))
          * Arr.lB m c (ix2 r (⟨512 * (t.val / 16) + q.val, col_lt t q⟩ : Fin 4096)) :=
    Finset.sum_congr rfl fun r _ => by rw [b6_apply m c t p r, Host.e6_apply, b4_apply m c t r q, Host.e4_eq]
  rw [Payload.pay2_apply, h1, h2, h3]
  rfl

/-- The specification of the launch arguments. -/
abbrev G (c : Dev nD) : FVec Ideal S8192x4096 .f32 :=
  Cert.Spec.out (Arr.x m c) (Arr.w m c) (Arr.a m c) (Arr.b m c) (Arr.lA m c) (Arr.lB m c)

/-- What point `t` writes back is block `t` of the specification. -/
theorem flushed_eq (hw : ∀ (c : Dev nD) i, Cert.Spec.InRange (Arr.w m c i)) (c : Dev nD) (t : Fin cfg0.N) :
    (dats m 0 c).flushed 7 t = ((cfg0.win 7).blk t).view.read (Elt Ideal) (G m c) := by
  obtain ⟨-, -, -, -, -, -, -, -, -, -, -, -, -, -, h0, h1⟩ := idx_facts t
  obtain ⟨Wt, hO, hW⟩ := out_block m hw c t
  rw [flushed7 m c t, hO]
  funext y
  obtain ⟨p, q, rfl⟩ : ∃ (p q : Fin 512), y = ix2 p q := ⟨y 0, y 1, eq_ix2 y⟩
  show k0_pay2 (b0 m c t) Wt (b6 m c t) (b4 m c t) (b5 m c t) (ix2 p q) = G m c (((cfg0.win 7).blk t).view.emb (ix2 p q))
  rw [out_entry m c t Wt hW p q]
  show _ = Cert.Spec.outAt _ _ _ _ _ _ ((((cfg0.win 7).blk t).view.emb (ix2 p q)) 0) ((((cfg0.win 7).blk t).view.emb (ix2 p q)) 1)
  refine congrArg₂ (Cert.Spec.outAt (Arr.x m c) (Arr.w m c) (Arr.a m c) (Arr.b m c) (Arr.lA m c) (Arr.lB m c)) (Fin.ext ?_) (Fin.ext ?_)
  · show 512 * (t.val % 16) + p.val = win0_7.index t (0 : Fin 2) * 512 + 1 * p.val
    omega
  · show 512 * (t.val / 16) + q.val = win0_7.index t (1 : Fin 2) * 512 + 1 * q.val
    omega

/-! ## The result array -/

/-- An index of the result is in point `t`'s block iff each coordinate is in the block's range on its axis. -/
theorem mem_blk (t : Fin cfg0.N) (i : S8192x4096.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v11).slice (win0_7.rect t)).set ↔ _
  rw [View.set_slice_whole, Rect.mem_set_unit]
  exact Iff.rfl

/-- Every entry `(T, N)` of the result is in the block of token tile `T / 512` of feature tile `N / 512`. -/
theorem cover (i : S8192x4096.Idx) : ∃ t : Fin cfg0.N, (cfg0.win 7).flush t = true ∧ i ∈ ((cfg0.win 7).blk t).view.set := by
  have hi0 : (i 0).val < 8192 := idx2_lt0 i
  have hi1 : (i 1).val < 4096 := idx2_lt1 i
  have hN := N128
  let t : Fin cfg0.N := ⟨16 * ((i 1).val / 512) + (i 0).val / 512, by omega⟩
  obtain ⟨-, -, -, -, -, -, -, -, -, -, -, -, -, -, h0, h1⟩ := idx_facts t
  refine ⟨t, flush0_7 t, ?_⟩
  rw [mem_blk]
  have ht : t.val = 16 * ((i 1).val / 512) + (i 0).val / 512 := rfl
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-- The result array after the run is the specification of the launch arguments. -/
theorem final (hw : ∀ (c : Dev nD) i, Cert.Spec.InRange (Arr.w m c i)) (c : Dev nD) :
    (dats m 0 c).arrAt 7 cfg0.N = G m c :=
  (dats m 0 c).arrAt_eq_of_cover 7 (G m c) (fun t _ => flushed_eq m hw c t) cover

/-- The kernel program's run: the result is the specification of the arguments, which are unchanged. -/
theorem run (hw : ∀ (c : Dev nD) i, Cert.Spec.InRange (Arr.w m c i)) :
    θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hw c), (h c).2⟩) (run_blocks m ρ)

end Cert.KernelIdeal.Blocks

end
-- ==== Proof.RefRun.lean ====
/-
  The reference program is a straight line of host operations: its run, read back. Every weakly fair execution ends with
  the result buffer at the operations' composed term of the six arguments — the level table gathered at the codes (a
  negative code first shifted up by sixteen), times the block scales repeated 64 times along a row, contracted with the
  tokens, plus the bias broadcast over the tokens, plus four times the two adapter products — and the arguments unchanged.
-/
import proofs.«403630_j4672924418482_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ StableHlo.nullary main_cst (fun i => FloatOps.ofBits .f32 (lit0 (S16.rowMajor i))),
    StableHlo.nullary main_c (constantI S_ 32 0#32),
    StableHlo.unary main_c main_v0 (broadcastInDim S4096x4096 ![] bcast_S_S4096x4096 : (⟨S_, .i32⟩ : BufTy).Contents (Elt F) → (⟨S4096x4096, .i32⟩ : BufTy).Contents (Elt F)),
    StableHlo.binary main_arg1 main_v0 main_v1 (cmpi .slt : (⟨S4096x4096, .i32⟩ : BufTy).Contents (Elt F) → (⟨S4096x4096, .i32⟩ : BufTy).Contents (Elt F) → (⟨S4096x4096, .i1⟩ : BufTy).Contents (Elt F)),
    StableHlo.nullary main_c_0 (constantI S_ 32 16#32),
    StableHlo.unary main_c_0 main_v2 (broadcastInDim S4096x4096 ![] bcast_S_S4096x4096 : (⟨S_, .i32⟩ : BufTy).Contents (Elt F) → (⟨S4096x4096, .i32⟩ : BufTy).Contents (Elt F)),
    StableHlo.binary main_arg1 main_v2 main_v3 (addi : (⟨S4096x4096, .i32⟩ : BufTy).Contents (Elt F) → (⟨S4096x4096, .i32⟩ : BufTy).Contents (Elt F) → (⟨S4096x4096, .i32⟩ : BufTy).Contents (Elt F)),
    StableHlo.ternary main_v1 main_v3 main_arg1 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    StableHlo.unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    StableHlo.binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    StableHlo.unary main_arg2 main_v7 (broadcastInDim S4096x64x64 ![0, 1] bcast_S4096x64_S4096x64x64_0_1 : (⟨S4096x64, .f32⟩ : BufTy).Contents (Elt F) → (⟨S4096x64x64, .f32⟩ : BufTy).Contents (Elt F)),
    StableHlo.reshape main_v7 main_v8 rfl shapeCasts_S4096x64x64_S4096x4096,
    StableHlo.binary main_v6 main_v8 main_v9 (mulf : (⟨S4096x4096, .f32⟩ : BufTy).Contents (Elt F) → (⟨S4096x4096, .f32⟩ : BufTy).Contents (Elt F) → (⟨S4096x4096, .f32⟩ : BufTy).Contents (Elt F)),
    StableHlo.unary main_v9 main_v10 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v10 main_v11 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg3 main_v12 (broadcastInDim S1x4096 ![1] bcast_S4096_S1x4096_1 : (⟨S4096, .f32⟩ : BufTy).Contents (Elt F) → (⟨S1x4096, .f32⟩ : BufTy).Contents (Elt F)),
    StableHlo.unary main_v12 main_v13 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v11 main_v13 main_v14 (addf : (⟨S8192x4096, .f32⟩ : BufTy).Contents (Elt F) → (⟨S8192x4096, .f32⟩ : BufTy).Contents (Elt F) → (⟨S8192x4096, .f32⟩ : BufTy).Contents (Elt F)),
    StableHlo.binary main_arg0 main_arg4 main_v15 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    StableHlo.binary main_v15 main_arg5 main_v16 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    StableHlo.nullary main_cst_1 (constant S_ .f32 0x40800000#32),
    StableHlo.unary main_cst_1 main_v17 (broadcastInDim S8192x4096 ![] bcast_S_S8192x4096 : (⟨S_, .f32⟩ : BufTy).Contents (Elt F) → (⟨S8192x4096, .f32⟩ : BufTy).Contents (Elt F)),
    StableHlo.binary main_v16 main_v17 main_v18 (mulf : (⟨S8192x4096, .f32⟩ : BufTy).Contents (Elt F) → (⟨S8192x4096, .f32⟩ : BufTy).Contents (Elt F) → (⟨S8192x4096, .f32⟩ : BufTy).Contents (Elt F)),
    StableHlo.binary main_v14 main_v18 main_v19 (addf : (⟨S8192x4096, .f32⟩ : BufTy).Contents (Elt F) → (⟨S8192x4096, .f32⟩ : BufTy).Contents (Elt F) → (⟨S8192x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub ..⟩

/-- The dequantised weight as the reference builds it: the level table gathered at the codes, a negative code first
    shifted up by sixteen, times each block scale repeated over its 64 columns. -/
def refW (w : IVec S4096x4096 32) (a : FVec F S4096x64 .f32) : FVec F S4096x4096 .f32 :=
  mulf
    (Host.gather gather_S16_S4096x4096x1_S4096x4096_n_0_n_n_0_2_1 (fun i => FloatOps.ofBits .f32 (lit0 (S16.rowMajor i)))
      (broadcastInDim S4096x4096x1 ![0, 1] bcast_S4096x4096_S4096x4096x1_0_1
        (select (cmpi .slt w (broadcastInDim S4096x4096 ![] bcast_S_S4096x4096 (constantI S_ 32 0#32)))
          (addi w (broadcastInDim S4096x4096 ![] bcast_S_S4096x4096 (constantI S_ 32 16#32))) w)))
    (fun i => shapeCast S4096x4096 (broadcastInDim S4096x64x64 ![0, 1] bcast_S4096x64_S4096x64x64_0_1 a) shapeCasts_S4096x64x64_S4096x4096 i)

/-- The reference's result as one term of its arguments. -/
def refOut (x : FVec F S8192x4096 .f32) (w : IVec S4096x4096 32) (a : FVec F S4096x64 .f32) (b : FVec F S4096 .f32)
    (A : FVec F S4096x16 .f32) (B : FVec F S16x4096 .f32) : FVec F S8192x4096 .f32 :=
  addf
    (addf
      (Host.dotGeneral dot_S8192x4096_S4096x4096_S8192x4096_1_0_0_1_n_n none x
        (transpose S4096x4096 [1, 0] (refW w a) transposes_S4096x4096_S4096x4096_1_0))
      (broadcastInDim S8192x4096 ![0, 1] bcast_S1x4096_S8192x4096_0_1 (broadcastInDim S1x4096 ![1] bcast_S4096_S1x4096_1 b)))
    (mulf
      (Host.dotGeneral dot_S8192x16_S16x4096_S8192x4096_1_0_0_1_n_n none
        (Host.dotGeneral dot_S8192x4096_S4096x16_S8192x16_1_0_0_1_n_n none x A) B)
      (broadcastInDim S8192x4096 ![] bcast_S_S8192x4096 (constant S_ .f32 0x40800000#32)))

set_option maxHeartbeats 4000000 in
/-- From any memory with zero counters, every weakly fair execution of the reference terminates with its result at
    `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.RefValue.lean ====
/-
  The reference's result term is the specification, entry by entry, when every code is valid: the gather reads the level
  table at the code itself (a valid code is never negative, so the shift by sixteen does not apply, and it is below
  sixteen, so the clamp does not either); repeating a block scale 64 times along a row puts scale `k / 64` at column `k`;
  a transpose swaps the two coordinates; and each matrix product is the sum over its one contracted axis.
-/
import proofs.«403630_j4672924418482_2_alg».proof.Proof.RefRun
import proofs.«403630_j4672924418482_2_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The three matrix products, each the sum over its one contracted axis

Each product contracts the left operand's columns with the right operand's rows: rows × contraction times
contraction × columns, no batch axis. -/

/-- Tokens times the (transposed) weight: at (t, n), the sum over the 4096 input features. -/
theorem dotXW_apply (X : FVec Ideal S8192x4096 .f32) (W : FVec Ideal S4096x4096 .f32) (t : Fin 8192) (n : Fin 4096) :
    Host.dotGeneral (F := Ideal) dot_S8192x4096_S4096x4096_S8192x4096_1_0_0_1_n_n none X W (ix2 t n)
      = ∑ k : Fin 4096, X (ix2 t k) * W (ix2 k n) :=
  StackMember.dotGeneral_plain_apply (m := 8192) (n := 4096) (k := 4096) none X W t n

/-- Tokens times the adapter's first factor: at (t, r), the sum over the 4096 input features. -/
theorem dotXA_apply (X : FVec Ideal S8192x4096 .f32) (A : FVec Ideal S4096x16 .f32) (t : Fin 8192) (r : Fin 16) :
    Host.dotGeneral (F := Ideal) dot_S8192x4096_S4096x16_S8192x16_1_0_0_1_n_n none X A (ix2 t r)
      = ∑ k : Fin 4096, X (ix2 t k) * A (ix2 k r) :=
  StackMember.dotGeneral_plain_apply (m := 8192) (n := 16) (k := 4096) none X A t r

/-- The low-rank projections times the adapter's second factor: at (t, n), the sum over the 16 directions. -/
theorem dotPB_apply (Y : FVec Ideal S8192x16 .f32) (B : FVec Ideal S16x4096 .f32) (t : Fin 8192) (n : Fin 4096) :
    Host.dotGeneral (F := Ideal) dot_S8192x16_S16x4096_S8192x4096_1_0_0_1_n_n none Y B (ix2 t n)
      = ∑ r : Fin 16, Y (ix2 t r) * B (ix2 r n) :=
  StackMember.dotGeneral_plain_apply (m := 8192) (n := 4096) (k := 16) none Y B t n

/-! ## The layout operations, each read at an index -/

/-- The bias, first made a one-row matrix and then repeated over the tokens, reads the bias at the column. -/
theorem bias_apply (b : FVec Ideal S4096 .f32) (t : Fin 8192) (n : Fin 4096) :
    broadcastInDim S8192x4096 ![0, 1] bcast_S1x4096_S8192x4096_0_1 (broadcastInDim S1x4096 ![1] bcast_S4096_S1x4096_1 b) (ix2 t n)
      = b (ix1 n) := by
  refine (broadcastInDim_apply _ _ _ (ix2 t n) (ix2 (0 : Fin 1) n) fun ax => ?_).trans ?_
  · match ax with
    | ⟨0, _⟩ => rfl
    | ⟨1, _⟩ => rfl
  · refine broadcastInDim_apply _ _ _ (ix2 (0 : Fin 1) n) (ix1 n) fun ax => ?_
    match ax with
    | ⟨0, _⟩ => rfl

/-- The adapter's scale, a scalar repeated over the whole result, reads the scalar's word everywhere. -/
theorem four_apply (t : Fin 8192) (n : Fin 4096) :
    broadcastInDim S8192x4096 ![] bcast_S_S8192x4096 (constant (F := Ideal) S_ .f32 0x40800000#32) (ix2 t n)
      = Ideal.ofBits .f32 0x40800000#32 :=
  broadcastInDim_apply _ _ _ (ix2 t n) ix0 fun ax => ax.elim0

/-- A transposed square matrix at (k, n) is the matrix at (n, k). -/
theorem transposeW_apply (W : FVec Ideal S4096x4096 .f32) (k n : Fin 4096) :
    transpose S4096x4096 [1, 0] W transposes_S4096x4096_S4096x4096_1_0 (ix2 k n) = W (ix2 n k) :=
  transpose_ix2_apply W transposes_S4096x4096_S4096x4096_1_0 k n

/-- Each block scale repeated 64 times along a new last axis, then the last two axes merged: row-major, column `k` of
    row `n` sits at block `k / 64`, place `k % 64`, so it carries scale `k / 64`. -/
theorem scale_apply (a : FVec Ideal S4096x64 .f32) (n k : Fin 4096) :
    shapeCast S4096x4096 (broadcastInDim S4096x64x64 ![0, 1] bcast_S4096x64_S4096x64x64_0_1 a) shapeCasts_S4096x64x64_S4096x4096 (ix2 n k)
      = a (ix2 n (⟨k.val / 64, by omega⟩ : Fin 64)) := by
  refine (shapeCast_apply _ _ (ix2 n k) (ix3 n (⟨k.val / 64, by omega⟩ : Fin 64) (⟨k.val % 64, by omega⟩ : Fin 64)) ?_).trans ?_
  · rw [Shape.rowMajor_val_three, Shape.rowMajor_val_two]
    show (n.val * 64 + k.val / 64) * 64 + k.val % 64 = n.val * 4096 + k.val
    omega
  · refine broadcastInDim_apply _ _ _ _ (ix2 n (⟨k.val / 64, by omega⟩ : Fin 64)) fun ax => ?_
    match ax with
    | ⟨0, _⟩ => rfl
    | ⟨1, _⟩ => rfl

/-! ## The level table gathered at the codes -/

/-- The sixteen levels as the reference holds them: one array of rank one. -/
abbrev levelTable : FVec Ideal S16 .f32 := fun i => FloatOps.ofBits .f32 (lit0 (S16.rowMajor i))

/-- A sixteen-entry table read at a word: the word taken as a signed integer and clamped into 0 … 15. -/
def clampRead (tbl : FVec Ideal S16 .f32) (c : BitVec 32) : EReal :=
  tbl (ix1 (⟨min c.toInt.toNat (16 - 1), by omega⟩ : Fin 16))

/-- The gather at (n, k) reads the table at the start index there, read signed and clamped into 0 … 15. -/
theorem gather_apply (tbl : FVec Ideal S16 .f32) (idx : IVec S4096x4096x1 32) (n k : Fin 4096) :
    Host.gather gather_S16_S4096x4096x1_S4096x4096_n_0_n_n_0_2_1 tbl idx (ix2 n k)
      = clampRead tbl (idx (takeIdx (ix2 n k))) :=
  gather_take_apply (N := 16) (R := 4096) (C := 4096) (by decide) gather_S16_S4096x4096x1_S4096x4096_n_0_n_n_0_2_1_wf tbl idx (ix2 n k)

/-- The codes given a trailing unit axis read, at (n, k, 0), the code at (n, k). -/
theorem unit_apply (c : IVec S4096x4096 32) (n k : Fin 4096) :
    broadcastInDim S4096x4096x1 ![0, 1] bcast_S4096x4096_S4096x4096x1_0_1 c (takeIdx (ix2 n k)) = c (ix2 n k) := by
  refine broadcastInDim_apply _ _ _ _ (ix2 n k) fun ax => ?_
  match ax with
  | ⟨0, _⟩ => rfl
  | ⟨1, _⟩ => rfl

/-- A valid code is not negative, so the shift by sixteen (applied to negative codes only) leaves it as it is. -/
theorem code_apply (w : IVec S4096x4096 32) (n k : Fin 4096) (h : Cert.Spec.InRange (w (ix2 n k))) :
    select (cmpi .slt w (broadcastInDim S4096x4096 ![] bcast_S_S4096x4096 (constantI S_ 32 0#32)))
        (addi w (broadcastInDim S4096x4096 ![] bcast_S_S4096x4096 (constantI S_ 32 16#32))) w (ix2 n k)
      = w (ix2 n k) := by
  have hs : (w (ix2 n k)).slt 0#32 = false := by
    have h0 := h.1
    simp only [BitVec.slt, BitVec.toInt_zero, decide_eq_false_iff_not, not_lt]
    exact h0
  show Scalar.select (BitVec.ofBool ((w (ix2 n k)).slt 0#32)) _ _ = _
  rw [hs]
  exact select_zero _ _

/-- The table at a valid code, read signed and clamped, is the code's level: a valid code is one of the sixteen words
    0, …, 15, and at each of them the clamp does nothing and the two tables hold the same word. -/
theorem table_apply (c : BitVec 32) (h : Cert.Spec.InRange c) : clampRead levelTable c = Cert.Spec.nf4 c := by
  obtain ⟨m, rfl⟩ := h.exists_fin
  show Ideal.ofBits .f32 _ = Ideal.ofBits .f32 _
  refine congrArg (Ideal.ofBits .f32) ?_
  fin_cases m <;> rfl

/-- The reference's dequantised weight at (n, k), where the code is valid: the code's level times its block's scale. -/
theorem refW_apply (w : IVec S4096x4096 32) (a : FVec Ideal S4096x64 .f32) (n k : Fin 4096)
    (h : Cert.Spec.InRange (w (ix2 n k))) :
    RefRun.refW (F := Ideal) w a (ix2 n k) = Cert.Spec.wt w a n k := by
  unfold RefRun.refW Cert.Spec.wt
  rw [mulf_apply]
  refine congr (congrArg HMul.hMul ?_) (scale_apply a n k)
  rw [gather_apply, unit_apply, code_apply w n k h]
  exact table_apply _ h

/-! ## The whole result -/

/-- The reference's term of its arguments is the specification, when every code is valid. -/
theorem refOut_eq (x : FVec Ideal S8192x4096 .f32) (w : IVec S4096x4096 32) (a : FVec Ideal S4096x64 .f32)
    (b : FVec Ideal S4096 .f32) (A : FVec Ideal S4096x16 .f32) (B : FVec Ideal S16x4096 .f32)
    (hw : ∀ i, Cert.Spec.InRange (w i)) :
    RefRun.refOut (F := Ideal) x w a b A B = Cert.Spec.out x w a b A B := by
  funext i
  obtain ⟨t, n, rfl⟩ : ∃ (t : Fin 8192) (n : Fin 4096), i = ix2 t n := ⟨i 0, i 1, eq_ix2 i⟩
  show RefRun.refOut (F := Ideal) x w a b A B (ix2 t n) = Cert.Spec.outAt x w a b A B t n
  unfold RefRun.refOut Cert.Spec.outAt Cert.Spec.proj
  rw [addf_apply, addf_apply, mulf_apply, dotXW_apply, bias_apply, dotPB_apply, four_apply]
  refine congr (congrArg HAdd.hAdd (congr (congrArg HAdd.hAdd ?_) rfl)) (congr (congrArg HMul.hMul ?_) rfl)
  · exact Finset.sum_congr rfl fun k _ => by rw [transposeW_apply, refW_apply w a n k (hw _)]
  · exact Finset.sum_congr rfl fun r _ => by rw [dotXA_apply]

end Cert.ReferenceIdeal.RefValue

end
-- ==== Proof.PreRange.lean ====
/-
  What the precondition says about the codes: its last conjunct is the conjunction, over all entries, of "the code is at
  least 0" and "the code is below 16" as signed comparisons, so where the precondition holds every code is valid.
-/
import proofs.«403630_j4672924418482_2_alg».proof.Pre_finite_inputs
import proofs.«403630_j4672924418482_2_alg».proof.Proof.Gen.Pre_finite_inputs
import proofs.«403630_j4672924418482_2_alg».proof.Proof.Spec
import Idealize.ShloMosaic.Lib.ReduceAll
import Idealize.ShloMosaic.Lib.StableHlo.Predicate

noncomputable section

namespace Cert.PreRange

open Idealize.ShloMosaic Cert.Pre_finite_inputs

/-- Where the precondition holds, every code is valid. -/
theorem codes_inRange {F : FTy → Type} [FloatOps F] (x : FVec F S8192x4096 .f32) (w : IVec S4096x4096 32)
    (a : FVec F S4096x64 .f32) (b : FVec F S4096 .f32) (A : FVec F S4096x16 .f32) (B : FVec F S16x4096 .f32)
    (h : fn (F := F) x w a b A B = fun _ => 1#1) (i : S4096x4096.Idx) : Cert.Spec.InRange (w i) := by
  -- the scalar shape has one index
  haveI : Subsingleton S_.Idx := ⟨fun a b => funext fun d => d.elim0⟩
  -- the precondition's one word is a conjunction of six; only the last, the one about the codes, is opened
  have h0 := congrFun h (fun d => d.elim0)
  unfold fn fn_part1 at h0
  dsimp only at h0
  have hall := (IntOp.andi_eq_one.1 h0).2
  -- the conjunction over all entries is 1, so the entry at `i` is 1: both of its comparisons hold there
  have hi := Host.reduce_andi_all _ _ _ _ _ hall i
  obtain ⟨hge, hlt⟩ := IntOp.andi_eq_one.1 hi
  -- the two comparisons are signed, against the splats of the words 0 and 16
  have h0le : (0#32 : BitVec 32).toInt ≤ (w i).toInt := IntOp.cmpi_sge.1 hge
  have hlt16 : (w i).toInt < (16#32 : BitVec 32).toInt := IntOp.cmpi_slt.1 hlt
  have e0 : (0#32 : BitVec 32).toInt = 0 := by decide
  have e16 : (16#32 : BitVec 32).toInt = 16 := by decide
  exact ⟨e0 ▸ h0le, e16 ▸ hlt16⟩

end Cert.PreRange

end
-- ==== Proof.lean ====
/-
  The certificate of a 4-bit-quantised linear layer with a low-rank adapter.

  Both programs compute, at token `t` and output feature `n`,

      (∑ₖ x[t, k] · W[n, k] + bias[n]) + (∑ᵣ (∑ₖ x[t, k] · A[k, r]) · B[r, n]) · 4,    W[n, k] = level (code[n, k]) · scale[n, k / 64].

  The reference looks the level up in a sixteen-entry table; the kernel selects it by fifteen comparisons `code ≥ i`. The
  two agree exactly on the valid codes 0, …, 15 (below 0 the table lookup wraps around while the comparisons saturate), so
  the claim is stated for valid codes: the precondition's last conjunct. The kernel spreads a block's scale over its 64
  columns by a product with a one-hot expansion matrix, which on the extended reals is exact for every scale, finite or
  not (`a · 0 = 0`, `a · 1 = a`); it rebuilds the dequantised weight once per feature tile and reuses it over the tile's
  sixteen token tiles. Each matrix product is one sum over its contracted axis on both sides, in the same order, so no
  further law of the extended reals is used and the finiteness conjuncts are never opened.

  The frames of the kernel and of its idealization are the generated ones; the reference's is its run with the result
  dropped. The idealization rewrote nothing, so `preserves` is trivial. For `algebraic`, the kernel's run ends with the
  result array at the specification of its arguments (the blocks tile the array) and the reference's run at the same
  specification of arguments that agree.
-/
import proofs.«403630_j4672924418482_2_alg».proof.Defs
import proofs.«403630_j4672924418482_2_alg».proof.Proof.Gen.Kernel
import proofs.«403630_j4672924418482_2_alg».proof.Proof.Gen.Kernel.Frame
import proofs.«403630_j4672924418482_2_alg».proof.Proof.Gen.KernelIdeal
import proofs.«403630_j4672924418482_2_alg».proof.Proof.Gen.KernelIdeal.Frame
import proofs.«403630_j4672924418482_2_alg».proof.Proof.Gen.ReferenceIdeal
import proofs.«403630_j4672924418482_2_alg».proof.Proof.Gen.Pre_finite_inputs
import proofs.«403630_j4672924418482_2_alg».proof.Proof.KernelBlocks
import proofs.«403630_j4672924418482_2_alg».proof.Proof.RefRun
import proofs.«403630_j4672924418482_2_alg».proof.Proof.RefValue
import proofs.«403630_j4672924418482_2_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Where the precondition holds, every weight code is valid. -/
theorem codes_valid (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4096x4096.Idx) :
    Cert.Spec.InRange (Cert.KernelIdeal.Arr.w m c i) :=
  Cert.PreRange.codes_inRange _ _ _ _ _ _ (h c) i

/-- Both runs end at the specification of the arguments: the kernel's by the tiling of its output blocks, the reference's
    by reading its operations entry by entry; the arguments agree. -/
theorem algebraic : Cert.algebraic_KernelIdeal_ReferenceIdeal := by
  intro m ρ m' ρ' hpre hagree
  refine ⟨fun c => Cert.KernelIdeal.Blocks.G m c, Cert.KernelIdeal.Blocks.run m ρ (codes_valid m hpre), ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5⟩ := hagree c
  rw [e0, e1, e2, e3, e4, e5]
  exact Cert.ReferenceIdeal.RefValue.refOut_eq _ _ _ _ _ _ (fun i => codes_valid m hpre c i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
